-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1000x128 : Shape := ⟨2, ![1000, 128]⟩
abbrev S128x128 : Shape := ⟨2, ![128, 128]⟩
abbrev S128 : Shape := ⟨1, ![128]⟩
abbrev S2000000 : Shape := ⟨1, ![2000000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2000000 : S_.BroadcastsInDim S2000000 (![] : Fin 0 → Fin S2000000.rank)
  reducesTo_S2000000_S_d0 : S2000000.ReducesTo [0] S_

variable [Facts]

def fn_part2 {F : FTy → Type} [FloatOps F] (main_arg7 : FVec F S2000000 .f32) (main_v33 : IVec S_ 1) : IVec S_ 1 :=
  let main_v34 : FVec F S2000000 .f32 := Host.absf main_arg7
  let main_cst_12 : FVec F S_ .f32 := constant S_ .f32 0x7F800000#32
  let main_v35 : FVec F S2000000 .f32 := broadcastInDim S2000000 ![] bcast_S_S2000000 main_cst_12
  let main_v36 : IVec S2000000 1 := cmpf .olt main_v34 main_v35
  let main_c_13 : IVec S_ 1 := constantI S_ 1 1#1
  let main_v37 : IVec S_ 1 := (fun x v => Host.reduce IntOp.andi x v reducesTo_S2000000_S_d0 h_S_) main_v36 main_c_13
  let main_v38 : IVec S_ 1 := andi main_v33 main_v37
  main_v38

def fn_part1 {F : FTy → Type} [FloatOps F] (main_arg4 : FVec F S128x128 .f32) (main_arg5 : FVec F S128x128 .f32) (main_arg6 : FVec F S128 .f32) (main_arg7 : FVec F S2000000 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_v33

def fn {F : FTy → Type} [FloatOps F] (main_arg0 : FVec F S100000x128 .f32) (main_arg1 : FVec F S1000x128 .f32) (main_arg2 : FVec F S100000x128 .f32) (main_arg3 : FVec F S128x128 .f32) (main_arg4 : FVec F S128x128 .f32) (main_arg5 : FVec F S128x128 .f32) (main_arg6 : FVec F S128 .f32) (main_arg7 : FVec F S2000000 .f32) (main_arg8 : IVec S2000000 32) (main_arg9 : IVec S2000000 32) (main_arg10 : IVec S2000000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1000x128 .f32 := Host.absf main_arg1
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_v13 main_v16
-- ==== Kernel.lean ====
abbrev S100000x128 : Shape := ⟨2, ![100000, 128]⟩
abbrev S1000x128 : Shape := ⟨2, ![1000, 128]⟩
abbrev S128x128 : Shape := ⟨2, ![128, 128]⟩
abbrev S128 : Shape := ⟨1, ![128]⟩
abbrev S2000000 : Shape := ⟨1, ![2000000]⟩
abbrev S5000x128 : Shape := ⟨2, ![5000, 128]⟩
abbrev S5000 : Shape := ⟨1, ![5000]⟩
abbrev S5000x1 : Shape := ⟨2, ![5000, 1]⟩
abbrev S_ : Shape := ⟨0, ![]⟩
abbrev S2000000x1 : Shape := ⟨2, ![2000000, 1]⟩
abbrev S2000000x128 : Shape := ⟨2, ![2000000, 128]⟩
abbrev S1x128 : Shape := ⟨2, ![1, 128]⟩

abbrev nBuf : Space → Nat
  | .hbm => 38
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S1000x128, .f32⟩
  | .hbm, ⟨2, _⟩ => ⟨S100000x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S2000000, .f32⟩
  | .hbm, ⟨8, _⟩ => ⟨S2000000, .i32⟩
  | .hbm, ⟨9, _⟩ => ⟨S2000000, .i32⟩
  | .hbm, ⟨10, _⟩ => ⟨S2000000, .i32⟩
  | .hbm, ⟨11, _⟩ => ⟨S100000x128, .f32⟩
  | .hbm, ⟨12, _⟩ => ⟨S100000x128, .f32⟩
  | .hbm, ⟨13, _⟩ => ⟨S_, .i32⟩
  | .hbm, ⟨14, _⟩ => ⟨S2000000, .i32⟩
  | .hbm, ⟨15, _⟩ => ⟨S2000000, .i1⟩
  | .hbm, ⟨16, _⟩ => ⟨S_, .i32⟩
  | .hbm, ⟨17, _⟩ => ⟨S2000000, .i32⟩
  | .hbm, ⟨18, _⟩ => ⟨S2000000, .i32⟩
  | .hbm, ⟨19, _⟩ => ⟨S2000000, .i32⟩
  | .hbm, ⟨20, _⟩ => ⟨S2000000x1, .i32⟩
  | .hbm, ⟨21, _⟩ => ⟨S2000000x128, .f32⟩
  | .hbm, ⟨22, _⟩ => ⟨S_, .i32⟩
  | .hbm, ⟨23, _⟩ => ⟨S2000000, .i32⟩
  | .hbm, ⟨24, _⟩ => ⟨S2000000, .i1⟩
  | .hbm, ⟨25, _⟩ => ⟨S_, .i32⟩
  | .hbm, ⟨26, _⟩ => ⟨S2000000, .i32⟩
  | .hbm, ⟨27, _⟩ => ⟨S2000000, .i32⟩
  | .hbm, ⟨28, _⟩ => ⟨S2000000, .i32⟩
  | .hbm, ⟨29, _⟩ => ⟨S2000000x1, .i32⟩
  | .hbm, ⟨30, _⟩ => ⟨S2000000x128, .f32⟩
  | .hbm, ⟨31, _⟩ => ⟨S2000000x1, .f32⟩
  | .hbm, ⟨32, _⟩ => ⟨S2000000x128, .f32⟩
  | .hbm, ⟨33, _⟩ => ⟨S_, .f32⟩
  | .hbm, ⟨34, _⟩ => ⟨S100000x128, .f32⟩
  | .hbm, ⟨35, _⟩ => ⟨S2000000x1, .i32⟩
  | .hbm, ⟨36, _⟩ => ⟨S100000x128, .f32⟩
  | .hbm, ⟨37, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x1, .f32⟩
  | .local _ .vmem, ⟨12, _⟩ => ⟨S5000x1, .f32⟩
  | .local _ .vmem, ⟨13, _⟩ => ⟨S128x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128, .f32⟩
  | .local _ .vmem, ⟨24, _⟩ => ⟨S5000x128, .f32⟩
  | .local _ .vmem, ⟨25, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  inb_S5000x128_S5000x128_0_0 : ∀ a, (![0, 0] : Fin 2 → Nat) a + S5000x128.size a ≤ S5000x128.size a
  h_S5000x128 : 0 < S5000x128.numel
  reduces_S5000x128_S5000 : S5000x128.Reduces [1] S5000
  shapeCasts_S5000_S5000x1 : S5000.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S2000000 : S_.BroadcastsInDim S2000000 (![] : Fin 0 → Fin S2000000.rank)
  bcast_S2000000_S2000000x1_0 : S2000000.BroadcastsInDim S2000000x1 (![0] : Fin 1 → Fin S2000000x1.rank)
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  bcast_S_S100000x128 : S_.BroadcastsInDim S100000x128 (![] : Fin 0 → Fin S100000x128.rank)
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  dot_S5000x128_S128x128_S5000x128_1_0_0_1_n_n_wf : DotDims.WF S5000x128 S128x128 S5000x128 [1] [0] [0] [1] [] []
  gather_S100000x128_S2000000x1_S2000000x128_1_0_n_n_0_1_1128_wf : GatherDims.WF S100000x128 S2000000x1 S2000000x128 [1] [0] [] [0] [] 1 ![1, 128]
  gather_S1000x128_S2000000x1_S2000000x128_1_0_n_n_0_1_1128_wf : GatherDims.WF S1000x128 S2000000x1 S2000000x128 [1] [0] [] [0] [] 1 ![1, 128]
  scatter_S100000x128_S2000000x1_S2000000x128_1_0_0_1_wf : ScatterDims.WF S100000x128 S2000000x1 S2000000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S2000000x128.size a
  hwx1_0 : ∀ i : grid1.Coords, EltTy.bits .f32 = 32 ∨ (Rect.block (s := S2000000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S2000000x128.size a
  hwx1_1 : ∀ i : grid1.Coords, EltTy.bits .f32 = 32 ∨ (Rect.block (s := S2000000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S2000000x1.size a
  hwx1_2 : ∀ i : grid1.Coords, EltTy.bits .f32 = 32 ∨ (Rect.block (s := S2000000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S2000000x128.size a
  hwx1_4 : ∀ i : grid1.Coords, EltTy.bits .f32 = 32 ∨ (Rect.block (s := S2000000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S2000000x1_S2000000x128_1_0_n_n_0_1_1128 : GatherDims S100000x128 S2000000x1 S2000000x128 where
  offsetDims := [1]
  collapsedSliceDims := [0]
  operandBatchingDims := []
  startIndicesBatchingDims := []
  startIndexMap := [0]
  indexVectorDim := 1
  sliceSizes := ![1, 128]
  wf := gather_S100000x128_S2000000x1_S2000000x128_1_0_n_n_0_1_1128_wf
def gather_S1000x128_S2000000x1_S2000000x128_1_0_n_n_0_1_1128 : GatherDims S1000x128 S2000000x1 S2000000x128 where
  offsetDims := [1]
  collapsedSliceDims := [0]
  operandBatchingDims := []
  startIndicesBatchingDims := []
  startIndexMap := [0]
  indexVectorDim := 1
  sliceSizes := ![1, 128]
  wf := gather_S1000x128_S2000000x1_S2000000x128_1_0_n_n_0_1_1128_wf
def scatter_S100000x128_S2000000x1_S2000000x128_1_0_0_1 : ScatterDims S100000x128 S2000000x1 S2000000x128 where
  updateWindowDims := [1]
  insertedWindowDims := [0]
  scatterDimsToOperandDims := [0]
  indexVectorDim := 1
  wf := scatter_S100000x128_S2000000x1_S2000000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S5000x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v19) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0_1) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v20) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S1000x128 : Shape := ⟨2, ![1000, 128]⟩
abbrev S128x128 : Shape := ⟨2, ![128, 128]⟩
abbrev S128 : Shape := ⟨1, ![128]⟩
abbrev S2000000 : Shape := ⟨1, ![2000000]⟩
abbrev S_ : Shape := ⟨0, ![]⟩
abbrev S100000 : Shape := ⟨1, ![100000]⟩
abbrev S100000x1 : Shape := ⟨2, ![100000, 1]⟩
abbrev S2000000x1 : Shape := ⟨2, ![2000000, 1]⟩
abbrev S2000000x128 : Shape := ⟨2, ![2000000, 128]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1000x128, .f32⟩
  | .hbm, ⟨2, _⟩ => ⟨S100000x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S2000000, .f32⟩
  | .hbm, ⟨8, _⟩ => ⟨S2000000, .i32⟩
  | .hbm, ⟨9, _⟩ => ⟨S2000000, .i32⟩
  | .hbm, ⟨10, _⟩ => ⟨S2000000, .i32⟩
  | .hbm, ⟨11, _⟩ => ⟨S100000x128, .f32⟩
  | .hbm, ⟨12, _⟩ => ⟨S_, .f32⟩
  | .hbm, ⟨13, _⟩ => ⟨S100000, .f32⟩
  | .hbm, ⟨14, _⟩ => ⟨S100000x1, .f32⟩
  | .hbm, ⟨15, _⟩ => ⟨S100000x1, .f32⟩
  | .hbm, ⟨16, _⟩ => ⟨S_, .f32⟩
  | .hbm, ⟨17, _⟩ => ⟨S100000x1, .f32⟩
  | .hbm, ⟨18, _⟩ => ⟨S100000x1, .f32⟩
  | .hbm, ⟨19, _⟩ => ⟨S100000x128, .f32⟩
  | .hbm, ⟨20, _⟩ => ⟨S100000x128, .f32⟩
  | .hbm, ⟨21, _⟩ => ⟨S_, .i32⟩
  | .hbm, ⟨22, _⟩ => ⟨S2000000, .i32⟩
  | .hbm, ⟨23, _⟩ => ⟨S2000000, .i1⟩
  | .hbm, ⟨24, _⟩ => ⟨S_, .i32⟩
  | .hbm, ⟨25, _⟩ => ⟨S2000000, .i32⟩
  | .hbm, ⟨26, _⟩ => ⟨S2000000, .i32⟩
  | .hbm, ⟨27, _⟩ => ⟨S2000000, .i32⟩
  | .hbm, ⟨28, _⟩ => ⟨S2000000x1, .i32⟩
  | .hbm, ⟨29, _⟩ => ⟨S2000000x128, .f32⟩
  | .hbm, ⟨30, _⟩ => ⟨S_, .i32⟩
  | .hbm, ⟨31, _⟩ => ⟨S2000000, .i32⟩
  | .hbm, ⟨32, _⟩ => ⟨S2000000, .i1⟩
  | .hbm, ⟨33, _⟩ => ⟨S_, .i32⟩
  | .hbm, ⟨34, _⟩ => ⟨S2000000, .i32⟩
  | .hbm, ⟨35, _⟩ => ⟨S2000000, .i32⟩
  | .hbm, ⟨36, _⟩ => ⟨S2000000, .i32⟩
  | .hbm, ⟨37, _⟩ => ⟨S2000000x1, .i32⟩
  | .hbm, ⟨38, _⟩ => ⟨S2000000x128, .f32⟩
  | .hbm, ⟨39, _⟩ => ⟨S2000000x128, .f32⟩
  | .hbm, ⟨40, _⟩ => ⟨S2000000x128, .f32⟩
  | .hbm, ⟨41, _⟩ => ⟨S2000000x1, .f32⟩
  | .hbm, ⟨42, _⟩ => ⟨S2000000x128, .f32⟩
  | .hbm, ⟨43, _⟩ => ⟨S2000000x128, .f32⟩
  | .hbm, ⟨44, _⟩ => ⟨S_, .f32⟩
  | .hbm, ⟨45, _⟩ => ⟨S100000x128, .f32⟩
  | .hbm, ⟨46, _⟩ => ⟨S2000000x1, .i32⟩
  | .hbm, ⟨47, _⟩ => ⟨S100000x128, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000x128, .f32⟩
  | .hbm, ⟨52, _⟩ => ⟨S100000x128, .i1⟩
  | .hbm, ⟨53, _⟩ => ⟨S_, .f32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S_, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩

abbrev nD : Nat := 1
abbrev τ : Topo := Topo.v7x

variable {F : FTy → Type} [FloatOps F]

class Facts₀ : Prop where
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S2000000x1_S2000000x128_0_1 : S2000000x1.BroadcastsInDim S2000000x128 (![0, 1] : Fin 2 → Fin S2000000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S2000000x1_S2000000x128_1_0_n_n_0_1_1128_wf : GatherDims.WF S100000x128 S2000000x1 S2000000x128 [1] [0] [] [0] [] 1 ![1, 128]
  gather_S1000x128_S2000000x1_S2000000x128_1_0_n_n_0_1_1128_wf : GatherDims.WF S1000x128 S2000000x1 S2000000x128 [1] [0] [] [0] [] 1 ![1, 128]
  dot_S2000000x128_S128x128_S2000000x128_1_0_0_1_n_n_wf : DotDims.WF S2000000x128 S128x128 S2000000x128 [1] [0] [0] [1] [] []
  scatter_S100000x128_S2000000x1_S2000000x128_1_0_0_1_wf : ScatterDims.WF S100000x128 S2000000x1 S2000000x128 [1] [0] [0] 1
  dot_S100000x128_S128x128_S100000x128_1_0_0_1_n_n_wf : DotDims.WF S100000x128 S128x128 S100000x128 [1] [0] [0] [1] [] []

variable [Facts₀]

def gather_S100000x128_S2000000x1_S2000000x128_1_0_n_n_0_1_1128 : GatherDims S100000x128 S2000000x1 S2000000x128 where
  offsetDims := [1]
  collapsedSliceDims := [0]
  operandBatchingDims := []
  startIndicesBatchingDims := []
  startIndexMap := [0]
  indexVectorDim := 1
  sliceSizes := ![1, 128]
  wf := gather_S100000x128_S2000000x1_S2000000x128_1_0_n_n_0_1_1128_wf
def gather_S1000x128_S2000000x1_S2000000x128_1_0_n_n_0_1_1128 : GatherDims S1000x128 S2000000x1 S2000000x128 where
  offsetDims := [1]
  collapsedSliceDims := [0]
  operandBatchingDims := []
  startIndicesBatchingDims := []
  startIndexMap := [0]
  indexVectorDim := 1
  sliceSizes := ![1, 128]
  wf := gather_S1000x128_S2000000x1_S2000000x128_1_0_n_n_0_1_1128_wf
def dot_S2000000x128_S128x128_S2000000x128_1_0_0_1_n_n : DotDims S2000000x128 S128x128 S2000000x128 where
  lhsContracting := [1]
  rhsContracting := [0]
  lhsNonContracting := [0]
  rhsNonContracting := [1]
  lhsBatch := []
  rhsBatch := []
  wf := dot_S2000000x128_S128x128_S2000000x128_1_0_0_1_n_n_wf
def scatter_S100000x128_S2000000x1_S2000000x128_1_0_0_1 : ScatterDims S100000x128 S2000000x1 S2000000x128 where
  updateWindowDims := [1]
  insertedWindowDims := [0]
  scatterDimsToOperandDims := [0]
  indexVectorDim := 1
  wf := scatter_S100000x128_S2000000x1_S2000000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The mathematics of one message-passing layer, index by index, on the extended reals.

  Rows of the node table are scaled to unit length, `unit x (r, j) = x (r, j) / max (sqrt (Σ k, x (r, k)²)) ε`.
  A matrix product is `mm a w (r, j) = Σ k, a (r, k) · w (k, j)`. An edge's message is the product of its node row with
  the neighbour weights, scaled by the edge's norm: the scaling can be applied to the row before the product
  (`msgScaledFirst`) or to the product afterwards (`msgScaledLast`). The node update adds the aggregated messages to the
  self-loop term, applies the leaky activation `act`, forms the gate `logistic (Σ k, act(..)(r, k) · wg (k, j) + b j)` and blends
  the activated row with the history row: `gateBlend`.
-/
import Idealize.ShloMosaic.PureOps.Ideal
import Idealize.ShloMosaic.Lib.ValueIdx

noncomputable section

namespace Cert.Spec

open Idealize.ShloMosaic Idealize.ShloMosaic.ValueIdx

/-- A matrix of extended reals with `R` rows and `C` columns. -/
abbrev Mat (R C : ℕ) := FVec Ideal ⟨2, ![R, C]⟩ .f32

/-- The floor under a row's length. -/
def eps : EReal := Ideal.ofBits .f32 0x2B8CBCCC#32

/-- The length of row `r`, floored at `eps`. -/
def rowNorm {R : ℕ} (x : Mat R 128) (r : Fin R) : EReal :=
  max (Ideal.sqrt (∑ k : Fin 128, x (ix2 r k) * x (ix2 r k))) eps

/-- Every row divided by its floored length. -/
def unit {R : ℕ} (x : Mat R 128) : Mat R 128 := fun i => Ideal.div (x i) (rowNorm x (i 0))

/-- The matrix product with a square weight matrix. -/
def mm {R : ℕ} (a : Mat R 128) (w : Mat 128 128) : Mat R 128 :=
  fun i => ∑ k : Fin 128, a (ix2 (i 0) k) * w (ix2 k (i 1))

/-- An edge's message with the edge norm applied to the node row before the product. -/
def msgScaledFirst {R : ℕ} (node : Mat R 128) (en : Mat R 1) (w : Mat 128 128) : Mat R 128 :=
  fun i => ∑ k : Fin 128, (node (ix2 (i 0) k) * en (ix2 (i 0) 0)) * w (ix2 k (i 1))

/-- An edge's message with the edge norm applied to the product. -/
def msgScaledLast {R : ℕ} (node : Mat R 128) (en : Mat R 1) (w : Mat 128 128) : Mat R 128 :=
  fun i => (∑ k : Fin 128, node (ix2 (i 0) k) * w (ix2 k (i 1))) * en (ix2 (i 0) 0)

/-- The number one as the programs spell it. -/
def one : EReal := Ideal.ofBits .f32 0x3F800000#32

/-- The leaky activation: `z` where `z ≥ 0`, a fixed slope times `z` elsewhere. -/
def act (z : EReal) : EReal :=
  Scalar.select (FloatOps.cmpf (F := Ideal) (φ := .f32) .oge z (Ideal.ofBits .f32 0x00000000#32)) z
    (Ideal.ofBits .f32 0x3E6AAAAB#32 * z)

/-- The activated sum of aggregate and self-loop term. -/
def cur {R : ℕ} (agg hs : Mat R 128) : Mat R 128 := fun i => act (agg i + hs i)

/-- The gate before the logistic function. -/
def gatePre {R : ℕ} (h : Mat R 128) (wg : Mat 128 128) (b : FVec Ideal ⟨1, ![128]⟩ .f32) : Mat R 128 :=
  fun i => (∑ k : Fin 128, h (ix2 (i 0) k) * wg (ix2 k (i 1))) + b (ix1 (i 1))

/-- The gated blend of the activated row with the history row. -/
def gateBlend {R : ℕ} (agg hs his : Mat R 128) (wg : Mat 128 128) (b : FVec Ideal ⟨1, ![128]⟩ .f32) : Mat R 128 :=
  fun i => Ideal.logistic (gatePre (cur agg hs) wg b i) * cur agg hs i
    + (one - Ideal.logistic (gatePre (cur agg hs) wg b i)) * his i

end Cert.Spec

end
-- ==== Proof.LibDense.lean ====
/-
  A plain matrix product read at an entry.

  For dimension numbers that contract the left operand's axis 1 with the right operand's axis 0 and have no batch axis,
  entry (p, q) of an [M × K] by [K × N] product is the sum over k of left (p, k) times right (k, q): for the
  vector unit's product into a zero accumulator and for the host's general dot alike. The hypotheses are the printed
  dimension numbers, each closed by `rfl` at a use.
-/
import Idealize.ShloMosaic.PureOps.Ideal
import Idealize.ShloMosaic.PureOps.Ideal.Laws
import Idealize.ShloMosaic.Lib.ValueIdx

noncomputable section

namespace Cert.LibDense

open Idealize.ShloMosaic Idealize.ShloMosaic.ValueIdx

variable {M K N : ℕ} (d : DotDims ⟨2, ![M, K]⟩ ⟨2, ![K, N]⟩ ⟨2, ![M, N]⟩)

/-- Two coordinates of one index at provably equal positions have one value. -/
private theorem coord_val_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's column is the contraction index. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction index. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The contraction shape has one axis, of extent K. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  have h := d.size_contr 0 (by rw [hlc]; exact Nat.one_pos)
  rw [h]
  simp [hlc]

/-- The sum over the contraction index is the sum over k of left (p, k) · right (k, q). -/
theorem sum_contr (hlc : d.lhsContracting = [1]) (hrc : d.rhsContracting = [0]) (hln : d.lhsNonContracting = [0])
    (hrn : d.rhsNonContracting = [1]) (hlb : d.lhsBatch = []) (hrb : d.rhsBatch = [])
    (x : (⟨2, ![M, K]⟩ : Shape).Idx → EReal) (w : (⟨2, ![K, N]⟩ : Shape).Idx → EReal) (p : Fin M) (q : Fin N) :
    ∑ k : d.contr.Idx, x (d.lhsIdx (ix2 p q) k) * w (d.rhsIdx (ix2 p q) k) = ∑ kk : Fin K, x (ix2 p kk) * w (ix2 kk q) := by
  rw [← Equiv.sum_comp (contrEquiv1 d K (contr_rank d hlc) (contr_size d hlc)).symm]
  refine Finset.sum_congr rfl fun kk _ => ?_
  have hk := contrEquiv1_symm_val d K (contr_rank d hlc) (contr_size d hlc) kk
  have el : d.lhsIdx (ix2 p q) ((contrEquiv1 d K (contr_rank d hlc) (contr_size d hlc)).symm kk) = ix2 p kk := by
    funext a; apply Fin.ext
    match a with
    | ⟨0, _⟩ => exact lhs_row d hln hlb _ _
    | ⟨1, _⟩ => exact (lhs_col d hlc _ _).trans hk
  have er : d.rhsIdx (ix2 p q) ((contrEquiv1 d K (contr_rank d hlc) (contr_size d hlc)).symm kk) = ix2 kk q := by
    funext a; apply Fin.ext
    match a with
    | ⟨0, _⟩ => exact (rhs_row d hrc _ _).trans hk
    | ⟨1, _⟩ => exact rhs_col d hln hrn hlb hrb _ _
  rw [el, er]

/-- The vector unit's product into a zero accumulator, read at (p, q). -/
theorem matmul_zero_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.matmul d prec x w (constant ⟨2, ![M, N]⟩ .f32 0x00000000#32) (ix2 p q) = ∑ kk : Fin K, x (ix2 p kk) * w (ix2 kk q) := by
  rw [Ideal.matmul_constant_zero_apply]
  exact sum_contr d hlc hrc hln hrn hlb hrb x w p q

/-- The vector unit's product into any accumulator, read at (p, q). -/
theorem matmul_acc_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (acc : FVec Ideal ⟨2, ![M, N]⟩ .f32) (p : Fin M) (q : Fin N) :
    FloatOps.matmul d prec x w acc (ix2 p q) = acc (ix2 p q) + ∑ kk : Fin K, x (ix2 p kk) * w (ix2 kk q) := by
  rw [Ideal.matmul_apply]
  exact congrArg (acc (ix2 p q) + ·) (sum_contr d hlc hrc hln hrn hlb hrb x w p q)

/-- The host's general dot, read at (p, q). -/
theorem dotGeneral_apply {φ₁ φ₂ : FTy} (prec : Option ContractPrecision) (sched : HostSchedule)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.dotGeneral d prec sched x w (ix2 p q) = ∑ kk : Fin K, x (ix2 p kk) * w (ix2 kk q) := by
  rw [Ideal.dotGeneral_apply]
  exact sum_contr d hlc hrc hln hrn hlb hrb x w p q

end Cert.LibDense

end
-- ==== Proof.LibColumn.lean ====
/-
  Column and row forms of layout operations, read at an entry, and a matrix's row sums.

  A one-column matrix broadcast along the columns has, at (p, q), the column's entry p; a vector cast to a one-column
  matrix has, at (p, 0), the vector's entry p; a vector laid along every row has, at (p, q), its entry q; and the sum of a
  matrix over its columns has, at row p, the sum over k of the entries (p, k).
-/
import Idealize.ShloMosaic.Lib.Pipeline.Value
import Idealize.ShloMosaic.Lib.ValueIdx
import Idealize.ShloMosaic.Lib.ValueLayout
import Idealize.ShloMosaic.PureOps.Ideal.Laws

noncomputable section
namespace Cert.LibColumn
open Idealize.ShloMosaic Idealize.ShloMosaic.ValueIdx

variable {α : Type}

/-- A one-column matrix broadcast along the columns, read at (p, q): the column's entry p. -/
theorem broadcastTo_col_apply {a b : ℕ} (v : (⟨2, ![a, 1]⟩ : Shape).Idx → α)
    (h : (⟨2, ![a, 1]⟩ : Shape).Broadcasts ⟨2, ![a, b]⟩) (ha : a ≠ 1) (p : Fin a) (q : Fin b) :
    broadcastTo ⟨2, ![a, b]⟩ v h (ix2 p q) = v (ix2 p (0 : Fin 1)) := by
  refine broadcastTo_apply v h (ix2 p q) (ix2 p (0 : Fin 1)) ?_
  intro x
  match x with
  | ⟨0, _⟩ => show p.val = if a = 1 then 0 else p.val; rw [if_neg ha]
  | ⟨1, _⟩ => rfl

/-- A vector cast to a one-column matrix, read at (p, 0): the vector's entry p. -/
theorem shapeCast_col_apply {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- A row sum of a matrix, read at row p: the sum over the columns. -/
theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src ?_
  funext x
  match x with
  | ⟨0, _⟩ => exact Fin.ext (by rw [Shape.Reduces.lift_val]; unfold Shape.Reduces.liftVal; rfl)
  | ⟨1, _⟩ => exact Fin.ext (by rw [Shape.Reduces.lift_val]; unfold Shape.Reduces.liftVal; rfl)

/-- A vector laid along every row of a matrix, read at (p, q): the vector's entry q. -/
theorem broadcastTo_row_apply {a b : ℕ} (v : (⟨1, ![b]⟩ : Shape).Idx → α)
    (h1 : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v h1) hb (ix2 p q) = v (ix1 q) := by
  rw [broadcastTo_1b_ab_apply, shapeCast_a_1a_apply]

end Cert.LibColumn
end
-- ==== Proof.Region0.lean ====
/-
  The first call: unit rows of the node table, and their product with the self-loop weights.

  The call walks the table in 20 blocks of 5000 rows; the weights are read whole at every block. At entry (p, q) of a block
  the first result is x (p, q) / max (sqrt (Σ k, x (p, k)²)) ε, which depends on row p of the block only, and row p of block t
  is row 5000 t + p of the table: the blocks are the restrictions of `Spec.unit` of the table. The second result at (p, q) is
  Σ k, (first result) (p, k) · w (k, q): the blocks are the restrictions of `Spec.mm (Spec.unit x) w`. Every row of the table
  lies in block (row / 5000), so the two result arrays end at those two functions of the arrays the call found.
-/
import proofs.«149162_j45543833206863_1_alg».proof.Proof.Gen.KernelIdeal.Frame
import proofs.«149162_j45543833206863_1_alg».proof.Proof.Spec
import proofs.«149162_j45543833206863_1_alg».proof.Proof.LibDense
import proofs.«149162_j45543833206863_1_alg».proof.Proof.LibColumn
import Idealize.ShloMosaic.Lib.Pipeline.Value
import Idealize.ShloMosaic.Lib.ValueIdx
import Idealize.ShloMosaic.PureOps.Ideal.Laws

noncomputable section
namespace Cert.Region0
open Cert.KernelIdeal Cert.KernelIdeal.Gen Idealize.ShloMosaic Idealize.ShloMosaic.ValueIdx Cert.Spec Cert.LibColumn

theorem pay1_apply (x0 : Vec Ideal S5000x128 .f32) (p : Fin 5000) (q : Fin 128) :
    k0_pay1 x0 (ix2 p q) = Ideal.div (x0 (ix2 p q)) (rowNorm x0 p) := by
  unfold k0_pay1
  dsimp only
  rw [divf_apply, broadcastTo_col_apply _ _ (by decide), maximumf_apply, broadcast_apply]
  show Ideal.div _ (max (Ideal.sqrt (shapeCast S5000x1 _ _ (ix2 p (0 : Fin 1)))) _) = _
  rw [shapeCast_col_apply, rowSum_apply]
  rfl

theorem pay2_apply (x0 : Vec Ideal S5000x128 .f32) (x1 : Vec Ideal S128x128 .f32) (p : Fin 5000) (q : Fin 128) :
    k0_pay2 x0 x1 (ix2 p q) = ∑ k : Fin 128, k0_pay1 x0 (ix2 p k) * x1 (ix2 k q) := by
  unfold k0_pay2
  exact Cert.LibDense.matmul_zero_apply dot_S5000x128_S128x128_S5000x128_1_0_0_1_n_n none rfl rfl rfl rfl rfl rfl _ _ p q

open Idealize.ShloMosaic.Pipeline (Dat Cfg Window)
open Idealize.SL.Sem Idealize.ShloMosaic.TcCoe

variable (V : (c : Dev nD) → (b : Ref sig .tc) → Buf (Elt Ideal) ((c : Thread nD τ).loc b))

theorem hz : (![0, 0] : Fin 2 → Nat) = fun _ => 0 := funext fun a => by fin_cases a <;> rfl

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem N20 : cfg0.N = 20 := by decide

/-- Row p of block t is row t · 5000 + p of the table. -/
abbrev row (t : Fin cfg0.N) (p : Fin 5000) : Fin 100000 := ⟨t.val * 5000 + p.val, by have := t.isLt; have := N20; omega⟩

theorem emb_in (t : Fin cfg0.N) (p : Fin 5000) (k : Fin 128) :
    ((cfg0.win 0).blk t).view.emb (ix2 p k) = ix2 (row t p) k := by
  obtain ⟨e0, e1, -⟩ := idx_facts t
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

theorem emb_out2 (t : Fin cfg0.N) (p : Fin 5000) (k : Fin 128) :
    ((cfg0.win 2).blk t).view.emb (ix2 p k) = ix2 (row t p) k := by
  obtain ⟨-, -, -, -, e0, e1, -⟩ := idx_facts t
  funext a; apply Fin.ext
  match a with
  | ⟨0, _⟩ => show win0_2.index t (0 : Fin 2) * 5000 + 1 * p.val = t.val * 5000 + p.val; omega
  | ⟨1, _⟩ => show win0_2.index t (1 : Fin 2) * 128 + 1 * k.val = k.val; omega

/-- The block's entries are the table's entries of its rows. -/
theorem iblk_in (c : Dev nD) (t : Fin cfg0.N) (p : Fin 5000) (k : Fin 128) :
    iblk0 V c 0 t (ix2 p k) = V c main_arg0 (ix2 (row t p) k) := by
  show V c main_arg0 (((cfg0.win 0).blk t).view.emb (ix2 p k)) = _
  rw [emb_in]

/-- A unit row depends on its own row only. -/
theorem unit_rowLocal {R B : ℕ} (x : Mat R 128) (blk : Mat B 128) (r : Fin R) (p : Fin B)
    (h : ∀ k, blk (ix2 p k) = x (ix2 r k)) (q : Fin 128) :
    Ideal.div (blk (ix2 p q)) (rowNorm blk p) = unit x (ix2 r q) := by
  unfold unit rowNorm
  simp only [h]
  rfl

theorem flushed2_eq (c : Dev nD) (t : Fin cfg0.N) :
    (dat0 V c).flushed 2 t = ((cfg0.win 2).blk t).view.read (Elt Ideal) (Spec.unit (V c main_arg0)) := by
  show (cfg0.win 2).cut (grid0.coords t) ((dat0 V c).after 2 t) = _
  rw [after0_2]
  unfold out0_2
  rw [View.canon_unit_zero hz]
  simp only [View.ld_unit_zero (S := S5000x128) hz]
  funext j
  obtain ⟨p, q, rfl⟩ : ∃ (p : Fin 5000) (q : Fin 128), j = ix2 p q := ⟨j 0, j 1, eq_ix2 j⟩
  show k0_pay1 (iblk0 V c 0 t) (ix2 p q) = unit (V c main_arg0) (((cfg0.win 2).blk t).view.emb (ix2 p q))
  refine (pay1_apply (iblk0 V c 0 t) p q).trans ?_
  rw [emb_out2]
  exact unit_rowLocal (V c main_arg0) (iblk0 V c 0 t) (row t p) p (fun k => iblk_in V c t p k) q

theorem emb_w (t : Fin cfg0.N) (p k : Fin 128) :
    ((cfg0.win 1).blk t).view.emb (ix2 p k) = ix2 p k := by
  obtain ⟨-, -, e0, e1, -⟩ := idx_facts t
  funext a; apply Fin.ext
  match a with
  | ⟨0, _⟩ => show win0_1.index t (0 : Fin 2) * 128 + 1 * p.val = p.val; omega
  | ⟨1, _⟩ => show win0_1.index t (1 : Fin 2) * 128 + 1 * k.val = k.val; omega

theorem emb_out3 (t : Fin cfg0.N) (p : Fin 5000) (k : Fin 128) :
    ((cfg0.win 3).blk t).view.emb (ix2 p k) = ix2 (row t p) k := by
  obtain ⟨-, -, -, -, -, -, e0, e1⟩ := idx_facts t
  funext a; apply Fin.ext
  match a with
  | ⟨0, _⟩ => show win0_3.index t (0 : Fin 2) * 5000 + 1 * p.val = t.val * 5000 + p.val; omega
  | ⟨1, _⟩ => show win0_3.index t (1 : Fin 2) * 128 + 1 * k.val = k.val; omega

theorem iblk_w (c : Dev nD) (t : Fin cfg0.N) (p k : Fin 128) :
    iblk0 V c 1 t (ix2 p k) = V c main_arg4 (ix2 p k) := by
  show V c main_arg4 (((cfg0.win 1).blk t).view.emb (ix2 p k)) = _
  rw [emb_w]

theorem flushed3_eq (c : Dev nD) (t : Fin cfg0.N) :
    (dat0 V c).flushed 3 t = ((cfg0.win 3).blk t).view.read (Elt Ideal) (Spec.mm (Spec.unit (V c main_arg0)) (V c main_arg4)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  show k0_pay2 (iblk0 V c 0 t) (iblk0 V c 1 t) (ix2 p q)
    = mm (unit (V c main_arg0)) (V c main_arg4) (((cfg0.win 3).blk t).view.emb (ix2 p q))
  refine (pay2_apply (iblk0 V c 0 t) (iblk0 V c 1 t) p q).trans ?_
  rw [emb_out3]
  unfold mm
  refine Finset.sum_congr rfl fun k _ => ?_
  rw [pay1_apply, iblk_w]
  exact congrArg (· * V c main_arg4 (ix2 k q)) (unit_rowLocal (V c main_arg0) (iblk0 V c 0 t) (row t p) p (fun k => iblk_in V c t p k) k)

/-- An index of the table is in point t's block of window 2 iff each coordinate is in the block's range. -/
theorem mem_blk2 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0_0).slice (win0_2.rect t)).set ↔ _
  rw [View.set_slice_whole, Rect.mem_set_unit]
  exact Iff.rfl

theorem mem_blk3 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v0_1).slice (win0_3.rect t)).set ↔ _
  rw [View.set_slice_whole, Rect.mem_set_unit]
  exact Iff.rfl

/-- Every row of the table lies in the block of the point numbered row / 5000. -/
theorem cover2 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  refine ⟨⟨(i 0).val / 5000, by have := N20; omega⟩, flush0_2 _, ?_⟩
  rw [mem_blk2]
  obtain ⟨-, -, -, -, e0, e1, -⟩ := idx_facts ⟨(i 0).val / 5000, by have := N20; omega⟩
  intro a
  match a with
  | ⟨0, _⟩ => show win0_2.index _ (0 : Fin 2) * 5000 ≤ (i 0).val ∧ (i 0).val < win0_2.index _ (0 : Fin 2) * 5000 + 5000; rw [e0]; show (i 0).val / 5000 * 5000 ≤ _ ∧ _ < (i 0).val / 5000 * 5000 + 5000; omega
  | ⟨1, _⟩ => show win0_2.index _ (1 : Fin 2) * 128 ≤ (i 1).val ∧ (i 1).val < win0_2.index _ (1 : Fin 2) * 128 + 128; rw [e1]; omega

theorem cover3 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  refine ⟨⟨(i 0).val / 5000, by have := N20; omega⟩, flush0_3 _, ?_⟩
  rw [mem_blk3]
  obtain ⟨-, -, -, -, -, -, e0, e1⟩ := idx_facts ⟨(i 0).val / 5000, by have := N20; omega⟩
  intro a
  match a with
  | ⟨0, _⟩ => show win0_3.index _ (0 : Fin 2) * 5000 ≤ (i 0).val ∧ (i 0).val < win0_3.index _ (0 : Fin 2) * 5000 + 5000; rw [e0]; show (i 0).val / 5000 * 5000 ≤ _ ∧ _ < (i 0).val / 5000 * 5000 + 5000; omega
  | ⟨1, _⟩ => show win0_3.index _ (1 : Fin 2) * 128 ≤ (i 1).val ∧ (i 1).val < win0_3.index _ (1 : Fin 2) * 128 + 128; rw [e1]; omega

/-- After the first call the first result holds the unit rows of the node table. -/
theorem final2 (c : Dev nD) : (dat0 V c).arrAt 2 cfg0.N = Spec.unit (V c main_arg0) :=
  (dat0 V c).arrAt_eq_of_cover 2 (Spec.unit (V c main_arg0)) (fun t _ => flushed2_eq V c t) cover2

/-- and the second their product with the self-loop weights. -/
theorem final3 (c : Dev nD) : (dat0 V c).arrAt 3 cfg0.N = Spec.mm (Spec.unit (V c main_arg0)) (V c main_arg4) :=
  (dat0 V c).arrAt_eq_of_cover 3 (Spec.mm (Spec.unit (V c main_arg0)) (V c main_arg4)) (fun t _ => flushed3_eq V c t) cover3

end Cert.Region0
end
-- ==== Proof.Region1.lean ====
/-
  The second call: an edge's message with the edge norm applied to the node row before the product.

  The call walks the 2,000,000 edges in 400 blocks of 5000; the neighbour weights are read whole at every block. At entry (p, q)
  of a block the result is Σ k, ((a (p, k) + b (p, k)) · n (p, 0)) · w (k, q) for the two gathered row blocks a, b and the norm
  column n: it depends on row p of the blocks only, and row p of block t is edge 5000 t + p.
-/
import proofs.«149162_j45543833206863_1_alg».proof.Proof.Gen.KernelIdeal.Frame
import proofs.«149162_j45543833206863_1_alg».proof.Proof.Spec
import proofs.«149162_j45543833206863_1_alg».proof.Proof.LibDense
import proofs.«149162_j45543833206863_1_alg».proof.Proof.LibColumn
import Idealize.ShloMosaic.Lib.Pipeline.Value
import Idealize.ShloMosaic.Lib.ValueIdx
import Idealize.ShloMosaic.PureOps.Ideal.Laws

noncomputable section
namespace Cert.Region1
open Cert.KernelIdeal Cert.KernelIdeal.Gen Idealize.ShloMosaic Idealize.ShloMosaic.ValueIdx Cert.Spec Cert.LibColumn
open Idealize.ShloMosaic.Pipeline (Dat Cfg Window)
open Idealize.SL.Sem Idealize.ShloMosaic.TcCoe

variable (V : (c : Dev nD) → (b : Ref sig .tc) → Buf (Elt Ideal) ((c : Thread nD τ).loc b))

/-- The payload at entry (p, q): the sum over k of ((a (p, k) + b (p, k)) · n (p, 0)) · w (k, q). -/
theorem pay1_apply (x0 x1 : Vec Ideal S5000x128 .f32) (x2 : Vec Ideal S5000x1 .f32) (x3 : Vec Ideal S128x128 .f32)
    (p : Fin 5000) (q : Fin 128) :
    k1_pay1 x0 x1 x2 x3 (ix2 p q)
      = ∑ k : Fin 128, ((x0 (ix2 p k) + x1 (ix2 p k)) * x2 (ix2 p (0 : Fin 1))) * x3 (ix2 k q) := by
  unfold k1_pay1
  refine (Cert.LibDense.matmul_zero_apply dot_S5000x128_S128x128_S5000x128_1_0_0_1_n_n none rfl rfl rfl rfl rfl rfl _ _ p q).trans ?_
  refine Finset.sum_congr rfl fun k _ => ?_
  rw [truncf_apply, truncf_apply, mulf_apply, addf_apply, broadcastTo_col_apply _ _ (by decide),
    shapeCast_self, shapeCast_self, shapeCast_self]

theorem hz : (![0, 0] : Fin 2 → Nat) = fun _ => 0 := funext fun a => by fin_cases a <;> rfl

theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem N400 : cfg1.N = 400 := by decide

/-- Row p of block t is edge t · 5000 + p. -/
abbrev row (t : Fin cfg1.N) (p : Fin 5000) : Fin 2000000 := ⟨t.val * 5000 + p.val, by have := t.isLt; have := N400; omega⟩

theorem emb_a (t : Fin cfg1.N) (p : Fin 5000) (k : Fin 128) :
    ((cfg1.win 0).blk t).view.emb (ix2 p k) = ix2 (row t p) k := by
  obtain ⟨e0, e1, -⟩ := idx_facts t
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

theorem emb_b (t : Fin cfg1.N) (p : Fin 5000) (k : Fin 128) :
    ((cfg1.win 1).blk t).view.emb (ix2 p k) = ix2 (row t p) k := by
  obtain ⟨-, -, e0, e1, -⟩ := idx_facts t
  funext a; apply Fin.ext
  match a with
  | ⟨0, _⟩ => show win1_1.index t (0 : Fin 2) * 5000 + 1 * p.val = t.val * 5000 + p.val; omega
  | ⟨1, _⟩ => show win1_1.index t (1 : Fin 2) * 128 + 1 * k.val = k.val; omega

theorem emb_n (t : Fin cfg1.N) (p : Fin 5000) :
    ((cfg1.win 2).blk t).view.emb (ix2 p (0 : Fin 1)) = ix2 (row t p) (0 : Fin 1) := by
  obtain ⟨-, -, -, -, e0, e1, -⟩ := idx_facts t
  funext a; apply Fin.ext
  match a with
  | ⟨0, _⟩ => show win1_2.index t (0 : Fin 2) * 5000 + 1 * p.val = t.val * 5000 + p.val; omega
  | ⟨1, _⟩ => show win1_2.index t (1 : Fin 2) * 1 + 1 * 0 = 0; omega

theorem emb_w (t : Fin cfg1.N) (p k : Fin 128) :
    ((cfg1.win 3).blk t).view.emb (ix2 p k) = ix2 p k := by
  obtain ⟨-, -, -, -, -, -, e0, e1, -⟩ := idx_facts t
  funext a; apply Fin.ext
  match a with
  | ⟨0, _⟩ => show win1_3.index t (0 : Fin 2) * 128 + 1 * p.val = p.val; omega
  | ⟨1, _⟩ => show win1_3.index t (1 : Fin 2) * 128 + 1 * k.val = k.val; omega

theorem emb_out (t : Fin cfg1.N) (p : Fin 5000) (k : Fin 128) :
    ((cfg1.win 4).blk t).view.emb (ix2 p k) = ix2 (row t p) k := by
  obtain ⟨-, -, -, -, -, -, -, -, e0, e1⟩ := idx_facts t
  funext a; apply Fin.ext
  match a with
  | ⟨0, _⟩ => show win1_4.index t (0 : Fin 2) * 5000 + 1 * p.val = t.val * 5000 + p.val; omega
  | ⟨1, _⟩ => show win1_4.index t (1 : Fin 2) * 128 + 1 * k.val = k.val; omega

/-- The first row block's entries are the first gathered array's entries of its edges. -/
theorem iblk_a (c : Dev nD) (t : Fin cfg1.N) (p : Fin 5000) (k : Fin 128) :
    iblk1 V c 0 t (ix2 p k) = V c main_v7 (ix2 (row t p) k) := by
  show V c main_v7 (((cfg1.win 0).blk t).view.emb (ix2 p k)) = _
  rw [emb_a]

/-- The second row block's entries are the second gathered array's entries of its edges. -/
theorem iblk_b (c : Dev nD) (t : Fin cfg1.N) (p : Fin 5000) (k : Fin 128) :
    iblk1 V c 1 t (ix2 p k) = V c main_v14 (ix2 (row t p) k) := by
  show V c main_v14 (((cfg1.win 1).blk t).view.emb (ix2 p k)) = _
  rw [emb_b]

/-- The norm block's entries are the norm column's entries of its edges. -/
theorem iblk_n (c : Dev nD) (t : Fin cfg1.N) (p : Fin 5000) :
    iblk1 V c 2 t (ix2 p (0 : Fin 1)) = V c main_v15 (ix2 (row t p) (0 : Fin 1)) := by
  show V c main_v15 (((cfg1.win 2).blk t).view.emb (ix2 p (0 : Fin 1))) = _
  rw [emb_n]

/-- The weights are read whole. -/
theorem iblk_w (c : Dev nD) (t : Fin cfg1.N) (p k : Fin 128) :
    iblk1 V c 3 t (ix2 p k) = V c main_arg3 (ix2 p k) := by
  show V c main_arg3 (((cfg1.win 3).blk t).view.emb (ix2 p k)) = _
  rw [emb_w]

/-- A message row depends on its own rows of the two summands and of the norm column only. -/
theorem msg_rowLocal {R B : ℕ} (x y : Mat R 128) (n : Mat R 1) (w : Mat 128 128)
    (xb yb : Mat B 128) (nb : Mat B 1) (wb : Mat 128 128) (r : Fin R) (p : Fin B)
    (hx : ∀ k, xb (ix2 p k) = x (ix2 r k)) (hy : ∀ k, yb (ix2 p k) = y (ix2 r k))
    (hn : nb (ix2 p (0 : Fin 1)) = n (ix2 r (0 : Fin 1))) (hw : ∀ k q, wb (ix2 k q) = w (ix2 k q)) (q : Fin 128) :
    ∑ k : Fin 128, ((xb (ix2 p k) + yb (ix2 p k)) * nb (ix2 p (0 : Fin 1))) * wb (ix2 k q)
      = msgScaledFirst (addf x y) n w (ix2 r q) := by
  unfold msgScaledFirst
  simp only [hx, hy, hn, hw]
  rfl

theorem flushed4_eq (c : Dev nD) (t : Fin cfg1.N) :
    (dat1 V c).flushed 4 t = ((cfg1.win 4).blk t).view.read (Elt Ideal)
      (Spec.msgScaledFirst (addf (V c main_v7) (V c main_v14)) (V c main_v15) (V c main_arg3)) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S128x128) hz]
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (iblk1 V c 3 t) (ix2 p q)
    = msgScaledFirst (addf (V c main_v7) (V c main_v14)) (V c main_v15) (V c main_arg3) (((cfg1.win 4).blk t).view.emb (ix2 p q))
  refine (pay1_apply (iblk1 V c 0 t) (iblk1 V c 1 t) (iblk1 V c 2 t) (iblk1 V c 3 t) p q).trans ?_
  rw [emb_out]
  exact msg_rowLocal (V c main_v7) (V c main_v14) (V c main_v15) (V c main_arg3)
    (iblk1 V c 0 t) (iblk1 V c 1 t) (iblk1 V c 2 t) (iblk1 V c 3 t) (row t p) p
    (fun k => iblk_a V c t p k) (fun k => iblk_b V c t p k) (iblk_n V c t p) (fun k q => iblk_w V c t k q) q

/-- An index of the result is in point t's block of window 4 iff each coordinate is in the block's range. -/
theorem mem_blk4 (t : Fin cfg1.N) (i : S2000000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v16).slice (win1_4.rect t)).set ↔ _
  rw [View.set_slice_whole, Rect.mem_set_unit]
  exact Iff.rfl

/-- Every edge lies in the block of the point numbered edge / 5000. -/
theorem cover4 (i : S2000000x128.Idx) : ∃ t : Fin cfg1.N, (cfg1.win 4).flush t = true ∧ i ∈ ((cfg1.win 4).blk t).view.set := by
  have hi0 : (i 0).val < 2000000 := (i 0).isLt
  have hi1 : (i 1).val < 128 := (i 1).isLt
  refine ⟨⟨(i 0).val / 5000, by have := N400; omega⟩, flush1_4 _, ?_⟩
  rw [mem_blk4]
  obtain ⟨-, -, -, -, -, -, -, -, e0, e1⟩ := idx_facts ⟨(i 0).val / 5000, by have := N400; omega⟩
  intro a
  match a with
  | ⟨0, _⟩ => show win1_4.index _ (0 : Fin 2) * 5000 ≤ (i 0).val ∧ (i 0).val < win1_4.index _ (0 : Fin 2) * 5000 + 5000; rw [e0]; show (i 0).val / 5000 * 5000 ≤ _ ∧ _ < (i 0).val / 5000 * 5000 + 5000; omega
  | ⟨1, _⟩ => show win1_4.index _ (1 : Fin 2) * 128 ≤ (i 1).val ∧ (i 1).val < win1_4.index _ (1 : Fin 2) * 128 + 128; rw [e1]; omega

/-- After the second call its result holds the messages, scaled before the product. -/
theorem final4 (c : Dev nD) :
    (dat1 V c).arrAt 4 cfg1.N = Spec.msgScaledFirst (addf (V c main_v7) (V c main_v14)) (V c main_v15) (V c main_arg3) := by
  exact (dat1 V c).arrAt_eq_of_cover 4 (Spec.msgScaledFirst (addf (V c main_v7) (V c main_v14)) (V c main_v15) (V c main_arg3))
    (fun t _ => flushed4_eq V c t) cover4

end Cert.Region1
end
-- ==== Proof.Region2.lean ====
/-
  The third call: the gated blend of the activated node rows with the history rows.

  The call walks the node table in 20 blocks of 5000 rows; the gate weights and the gate bias are read whole at every block.
  At entry (p, q) of a block, with cur (p, k) = act (agg (p, k) + hs (p, k)) and g = logistic (Σ k, cur (p, k) · wg (k, q) + b q), the
  result is g · cur (p, q) + (1 − g) · his (p, q): it depends on row p of the blocks only, and row p of block t is row 5000 t + p.
-/
import proofs.«149162_j45543833206863_1_alg».proof.Proof.Gen.KernelIdeal.Frame
import proofs.«149162_j45543833206863_1_alg».proof.Proof.Spec
import proofs.«149162_j45543833206863_1_alg».proof.Proof.LibDense
import proofs.«149162_j45543833206863_1_alg».proof.Proof.LibColumn
import Idealize.ShloMosaic.Lib.Pipeline.Value
import Idealize.ShloMosaic.Lib.ValueIdx
import Idealize.ShloMosaic.PureOps.Ideal.Laws

noncomputable section
namespace Cert.Region2
open Cert.KernelIdeal Cert.KernelIdeal.Gen Idealize.ShloMosaic Idealize.ShloMosaic.ValueIdx Cert.Spec Cert.LibColumn

/-- The select on the sign of the sum of two blocks is the leaky activation of the sum. -/
theorem act_apply (v0 v2 : Vec Ideal S5000x128 .f32) (i : S5000x128.Idx) :
    select (cmpf .oge (addf v0 v2) (broadcast S5000x128 (Scalar.ofBits (F := Ideal) .f32 0x00000000#32))) (addf v0 v2)
      (mulf (broadcast S5000x128 (Scalar.ofBits (F := Ideal) .f32 0x3E6AAAAB#32)) (addf v0 v2)) i = cur v0 v2 i := rfl

/-- The logistic function of a block, at an entry. -/
theorem logistic_apply (v : FVec Ideal S5000x128 .f32) (i : S5000x128.Idx) : logistic v i = Ideal.logistic (v i) := rfl

/-- The product of a block with a square matrix into a zero accumulator, at an entry. -/
theorem mm_apply (x : FVec Ideal S5000x128 .f32) (w : Vec Ideal S128x128 .f32) (p : Fin 5000) (q : Fin 128) :
    matmul dot_S5000x128_S128x128_S5000x128_1_0_0_1_n_n none (truncf .bf16 x bitsLt_bf16_f32)
      (truncf .bf16 w bitsLt_bf16_f32) (constant S5000x128 .f32 0x00000000#32) (ix2 p q)
      = ∑ k : Fin 128, x (ix2 p k) * w (ix2 k q) :=
  Cert.LibDense.matmul_zero_apply dot_S5000x128_S128x128_S5000x128_1_0_0_1_n_n none rfl rfl rfl rfl rfl rfl _ _ p q

/-- The call's result on a block is the gated blend of the blocks it read. -/
theorem pay1_apply (v0 v2 : Vec Ideal S5000x128 .f32) (v11 : Vec Ideal S128x128 .f32) (v14 : Vec Ideal S128 .f32)
    (v19 : Vec Ideal S5000x128 .f32) (p : Fin 5000) (q : Fin 128) :
    k2_pay1 v0 v2 v11 v14 v19 (ix2 p q) = gateBlend v0 v2 v19 v11 v14 (ix2 p q) := by
  unfold k2_pay1
  rw [shapeCast_self, shapeCast_self]
  simp only [addf_apply, mulf_apply, subf_apply, broadcast_apply, logistic_apply, act_apply]
  rw [mm_apply, broadcastTo_row_apply]
  simp only [act_apply]
  rfl

open Idealize.ShloMosaic.Pipeline (Dat Cfg Window)
open Idealize.SL.Sem Idealize.ShloMosaic.TcCoe

variable (V : (c : Dev nD) → (b : Ref sig .tc) → Buf (Elt Ideal) ((c : Thread nD τ).loc b))

theorem hz : (![0, 0] : Fin 2 → Nat) = fun _ => 0 := funext fun a => by fin_cases a <;> rfl

theorem hz1 : (![0] : Fin 1 → Nat) = fun _ => 0 := funext fun a => by fin_cases a; rfl

theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

theorem N20 : cfg2.N = 20 := by decide

/-- Row p of block t is row t · 5000 + p of the table. -/
abbrev row (t : Fin cfg2.N) (p : Fin 5000) : Fin 100000 := ⟨t.val * 5000 + p.val, by have := t.isLt; have := N20; omega⟩

theorem emb_agg (t : Fin cfg2.N) (p : Fin 5000) (k : Fin 128) :
    ((cfg2.win 0).blk t).view.emb (ix2 p k) = ix2 (row t p) k := by
  obtain ⟨e0, e1, -⟩ := idx_facts t
  funext a; apply Fin.ext
  match a with
  | ⟨0, _⟩ => show win2_0.index t (0 : Fin 2) * 5000 + 1 * p.val = t.val * 5000 + p.val; omega
  | ⟨1, _⟩ => show win2_0.index t (1 : Fin 2) * 128 + 1 * k.val = k.val; omega

theorem emb_hs (t : Fin cfg2.N) (p : Fin 5000) (k : Fin 128) :
    ((cfg2.win 1).blk t).view.emb (ix2 p k) = ix2 (row t p) k := by
  obtain ⟨-, -, e0, e1, -⟩ := idx_facts t
  funext a; apply Fin.ext
  match a with
  | ⟨0, _⟩ => show win2_1.index t (0 : Fin 2) * 5000 + 1 * p.val = t.val * 5000 + p.val; omega
  | ⟨1, _⟩ => show win2_1.index t (1 : Fin 2) * 128 + 1 * k.val = k.val; omega

theorem emb_his (t : Fin cfg2.N) (p : Fin 5000) (k : Fin 128) :
    ((cfg2.win 2).blk t).view.emb (ix2 p k) = ix2 (row t p) k := by
  obtain ⟨-, -, -, -, e0, e1, -⟩ := idx_facts t
  funext a; apply Fin.ext
  match a with
  | ⟨0, _⟩ => show win2_2.index t (0 : Fin 2) * 5000 + 1 * p.val = t.val * 5000 + p.val; omega
  | ⟨1, _⟩ => show win2_2.index t (1 : Fin 2) * 128 + 1 * k.val = k.val; omega

theorem emb_wg (t : Fin cfg2.N) (p k : Fin 128) :
    ((cfg2.win 3).blk t).view.emb (ix2 p k) = ix2 p k := by
  obtain ⟨-, -, -, -, -, -, e0, e1, -⟩ := idx_facts t
  funext a; apply Fin.ext
  match a with
  | ⟨0, _⟩ => show win2_3.index t (0 : Fin 2) * 128 + 1 * p.val = p.val; omega
  | ⟨1, _⟩ => show win2_3.index t (1 : Fin 2) * 128 + 1 * k.val = k.val; omega

theorem emb_b (t : Fin cfg2.N) (k : Fin 128) :
    ((cfg2.win 4).blk t).view.emb (ix1 k) = ix1 k := by
  obtain ⟨-, -, -, -, -, -, -, -, e0, -⟩ := idx_facts t
  funext a; apply Fin.ext
  match a with
  | ⟨0, _⟩ => show win2_4.index t (0 : Fin 1) * 128 + 1 * k.val = k.val; omega

theorem emb_out (t : Fin cfg2.N) (p : Fin 5000) (k : Fin 128) :
    ((cfg2.win 5).blk t).view.emb (ix2 p k) = ix2 (row t p) k := by
  obtain ⟨-, -, -, -, -, -, -, -, -, e0, e1⟩ := idx_facts t
  funext a; apply Fin.ext
  match a with
  | ⟨0, _⟩ => show win2_5.index t (0 : Fin 2) * 5000 + 1 * p.val = t.val * 5000 + p.val; omega
  | ⟨1, _⟩ => show win2_5.index t (1 : Fin 2) * 128 + 1 * k.val = k.val; omega

/-- The blocks' entries are the arrays' entries of their rows. -/
theorem iblk_agg (c : Dev nD) (t : Fin cfg2.N) (p : Fin 5000) (k : Fin 128) :
    iblk2 V c 0 t (ix2 p k) = V c main_v19 (ix2 (row t p) k) := by
  show V c main_v19 (((cfg2.win 0).blk t).view.emb (ix2 p k)) = _
  rw [emb_agg]

theorem iblk_hs (c : Dev nD) (t : Fin cfg2.N) (p : Fin 5000) (k : Fin 128) :
    iblk2 V c 1 t (ix2 p k) = V c main_v0_1 (ix2 (row t p) k) := by
  show V c main_v0_1 (((cfg2.win 1).blk t).view.emb (ix2 p k)) = _
  rw [emb_hs]

theorem iblk_his (c : Dev nD) (t : Fin cfg2.N) (p : Fin 5000) (k : Fin 128) :
    iblk2 V c 2 t (ix2 p k) = V c main_arg2 (ix2 (row t p) k) := by
  show V c main_arg2 (((cfg2.win 2).blk t).view.emb (ix2 p k)) = _
  rw [emb_his]

theorem iblk_wg (c : Dev nD) (t : Fin cfg2.N) (p k : Fin 128) :
    iblk2 V c 3 t (ix2 p k) = V c main_arg5 (ix2 p k) := by
  show V c main_arg5 (((cfg2.win 3).blk t).view.emb (ix2 p k)) = _
  rw [emb_wg]

theorem iblk_b (c : Dev nD) (t : Fin cfg2.N) (k : Fin 128) :
    iblk2 V c 4 t (ix1 k) = V c main_arg6 (ix1 k) := by
  show V c main_arg6 (((cfg2.win 4).blk t).view.emb (ix1 k)) = _
  rw [emb_b]

/-- The gated blend at a row depends on that row of the three tables only, and on the weights and the bias. -/
theorem gateBlend_rowLocal {R B : ℕ} (agg hs his : Mat R 128) (bagg bhs bhis : Mat B 128) (wg wg' : Mat 128 128)
    (b b' : FVec Ideal ⟨1, ![128]⟩ .f32) (r : Fin R) (p : Fin B)
    (h0 : ∀ k, bagg (ix2 p k) = agg (ix2 r k)) (h1 : ∀ k, bhs (ix2 p k) = hs (ix2 r k))
    (h2 : ∀ k, bhis (ix2 p k) = his (ix2 r k)) (hw : ∀ k j, wg' (ix2 k j) = wg (ix2 k j))
    (hb : ∀ j, b' (ix1 j) = b (ix1 j)) (q : Fin 128) :
    gateBlend bagg bhs bhis wg' b' (ix2 p q) = gateBlend agg hs his wg b (ix2 r q) := by
  have hc : ∀ k, cur bagg bhs (ix2 p k) = cur agg hs (ix2 r k) := fun k => by
    show act (bagg (ix2 p k) + bhs (ix2 p k)) = act (agg (ix2 r k) + hs (ix2 r k))
    rw [h0, h1]
  show Ideal.logistic ((∑ k : Fin 128, cur bagg bhs (ix2 p k) * wg' (ix2 k q)) + b' (ix1 q)) * cur bagg bhs (ix2 p q)
      + (one - Ideal.logistic ((∑ k : Fin 128, cur bagg bhs (ix2 p k) * wg' (ix2 k q)) + b' (ix1 q))) * bhis (ix2 p q)
    = Ideal.logistic ((∑ k : Fin 128, cur agg hs (ix2 r k) * wg (ix2 k q)) + b (ix1 q)) * cur agg hs (ix2 r q)
      + (one - Ideal.logistic ((∑ k : Fin 128, cur agg hs (ix2 r k) * wg (ix2 k q)) + b (ix1 q))) * his (ix2 r q)
  simp only [hc, h2, hw, hb]

theorem flushed5_eq (c : Dev nD) (t : Fin cfg2.N) :
    (dat2 V c).flushed 5 t = ((cfg2.win 5).blk t).view.read (Elt Ideal)
      (Spec.gateBlend (V c main_v19) (V c main_v0_1) (V c main_arg2) (V c main_arg5) (V c main_arg6)) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S128) hz1]
  funext j
  obtain ⟨p, q, rfl⟩ : ∃ (p : Fin 5000) (q : Fin 128), j = ix2 p q := ⟨j 0, j 1, eq_ix2 j⟩
  show k2_pay1 (iblk2 V c 0 t) (iblk2 V c 1 t) (iblk2 V c 3 t) (iblk2 V c 4 t) (iblk2 V c 2 t) (ix2 p q)
    = gateBlend (V c main_v19) (V c main_v0_1) (V c main_arg2) (V c main_arg5) (V c main_arg6)
        (((cfg2.win 5).blk t).view.emb (ix2 p q))
  refine (pay1_apply (iblk2 V c 0 t) (iblk2 V c 1 t) (iblk2 V c 3 t) (iblk2 V c 4 t) (iblk2 V c 2 t) p q).trans ?_
  rw [emb_out]
  exact gateBlend_rowLocal (V c main_v19) (V c main_v0_1) (V c main_arg2) (iblk2 V c 0 t) (iblk2 V c 1 t) (iblk2 V c 2 t)
    (V c main_arg5) (iblk2 V c 3 t) (V c main_arg6) (iblk2 V c 4 t) (row t p) p
    (fun k => iblk_agg V c t p k) (fun k => iblk_hs V c t p k) (fun k => iblk_his V c t p k)
    (fun k j => iblk_wg V c t k j) (fun j => iblk_b V c t j) q

/-- An index of the table is in point t's block of the result's window iff each coordinate is in the block's range. -/
theorem mem_blk5 (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v20).slice (win2_5.rect t)).set ↔ _
  rw [View.set_slice_whole, Rect.mem_set_unit]
  exact Iff.rfl

/-- Every row of the table lies in the block of the point numbered row / 5000. -/
theorem cover5 (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  refine ⟨⟨(i 0).val / 5000, by have := N20; omega⟩, flush2_5 _, ?_⟩
  rw [mem_blk5]
  obtain ⟨-, -, -, -, -, -, -, -, -, e0, e1⟩ := idx_facts ⟨(i 0).val / 5000, by have := N20; omega⟩
  intro a
  match a with
  | ⟨0, _⟩ => show win2_5.index _ (0 : Fin 2) * 5000 ≤ (i 0).val ∧ (i 0).val < win2_5.index _ (0 : Fin 2) * 5000 + 5000; rw [e0]; show (i 0).val / 5000 * 5000 ≤ _ ∧ _ < (i 0).val / 5000 * 5000 + 5000; omega
  | ⟨1, _⟩ => show win2_5.index _ (1 : Fin 2) * 128 ≤ (i 1).val ∧ (i 1).val < win2_5.index _ (1 : Fin 2) * 128 + 128; rw [e1]; omega

/-- After the third call its result holds the gated blend. -/
theorem final5 (c : Dev nD) :
    (dat2 V c).arrAt 5 cfg2.N
      = Spec.gateBlend (V c main_v19) (V c main_v0_1) (V c main_arg2) (V c main_arg5) (V c main_arg6) := by
  exact (dat2 V c).arrAt_eq_of_cover 5
    (Spec.gateBlend (V c main_v19) (V c main_v0_1) (V c main_arg2) (V c main_arg5) (V c main_arg6))
    (fun t _ => flushed5_eq V c t) cover5

end Cert.Region2
end
-- ==== Proof.KernelValue.lean ====
/-
  The kernel program's result as a function of the launch memory.

  The buffer contents at each boundary of the program are read back in order: after the first call the unit rows and the
  self-loop product; after the host operations the two gathers (carried as printed) and the norm column; after the second
  call the messages; after the scatter-add their aggregate; after the third call the gated blend. No host operation and no
  call writes an argument, so each argument is read at its launch contents.
-/
import proofs.«149162_j45543833206863_1_alg».proof.Proof.KernelRun
import proofs.«149162_j45543833206863_1_alg».proof.Proof.Region0
import proofs.«149162_j45543833206863_1_alg».proof.Proof.Region1
import proofs.«149162_j45543833206863_1_alg».proof.Proof.Region2
import Idealize.ShloMosaic.Lib.StableHlo.Run

set_option maxRecDepth 16384
noncomputable section
namespace Cert.KernelValue
open Cert.KernelIdeal Cert.KernelIdeal.Gen Idealize.ShloMosaic Idealize.ShloMosaic.ValueIdx Cert.Spec
open Idealize.ShloMosaic.Pipeline (Dat Cfg Window)
open Idealize.SL.Sem Idealize.ShloMosaic.TcCoe Idealize.ShloMosaic.StableHlo

variable (m : (ℓ : Loc nD τ sig) → Buf (Elt Ideal) ℓ) (ρ : Dev nD → PrngReg)

/-- The source indices as the gather takes them. -/
def srcIdx (a8 : IVec S2000000 32) : IVec S2000000x1 32 :=
  broadcastInDim S2000000x1 ![0] bcast_S2000000_S2000000x1_0
    (select (cmpi .slt a8 (broadcastInDim S2000000 ![] bcast_S_S2000000 (constantI S_ 32 0#32)))
      (addi a8 (broadcastInDim S2000000 ![] bcast_S_S2000000 (constantI S_ 32 100000#32))) a8)

def relIdx (a10 : IVec S2000000 32) : IVec S2000000x1 32 :=
  broadcastInDim S2000000x1 ![0] bcast_S2000000_S2000000x1_0
    (select (cmpi .slt a10 (broadcastInDim S2000000 ![] bcast_S_S2000000 (constantI S_ 32 0#32)))
      (addi a10 (broadcastInDim S2000000 ![] bcast_S_S2000000 (constantI S_ 32 1000#32))) a10)

def node (h : FVec Ideal S100000x128 .f32) (rel : FVec Ideal S1000x128 .f32) (a8 a10 : IVec S2000000 32) :
    FVec Ideal S2000000x128 .f32 :=
  addf (Host.gather gather_S100000x128_S2000000x1_S2000000x128_1_0_n_n_0_1_1128 h (srcIdx a8))
    (Host.gather gather_S1000x128_S2000000x1_S2000000x128_1_0_n_n_0_1_1128 rel (relIdx a10))

def enCol (a7 : FVec Ideal S2000000 .f32) : FVec Ideal S2000000x1 .f32 :=
  broadcastInDim S2000000x1 ![0] bcast_S2000000_S2000000x1_0 a7

def aggregate (a9 : IVec S2000000 32) (msg : FVec Ideal S2000000x128 .f32) : FVec Ideal S100000x128 .f32 :=
  Host.scatterAdd scatter_S100000x128_S2000000x1_S2000000x128_1_0_0_1
    (broadcastInDim S100000x128 ![] bcast_S_S100000x128 (constant S_ .f32 0x00000000#32))
    (broadcastInDim S2000000x1 ![0] bcast_S2000000_S2000000x1_0 a9) msg

/-- After the first call: the unit rows. -/
theorem W1_h (c : Dev nD) : W1 m ρ c (Proc.devRef .tc main_v0_0) = unit (m ((c : Thread nD τ).loc main_arg0)) :=
  (W1_arr m ρ c 2).trans (Cert.Region0.final2 (V0 m ρ) c)

theorem W1_hs (c : Dev nD) : W1 m ρ c (Proc.devRef .tc main_v0_1)
    = mm (unit (m ((c : Thread nD τ).loc main_arg0))) (m ((c : Thread nD τ).loc main_arg4)) :=
  (W1_arr m ρ c 3).trans (Cert.Region0.final3 (V0 m ρ) c)

theorem W1_arg (c : Dev nD) (b : Ref sig .tc) (hb : ∀ w, Pipeline.arrRef spec0 w ≠ b) :
    W1 m ρ c (Proc.devRef .tc b) = m ((c : Thread nD τ).loc b) := W1_of_ne m ρ c b hb

theorem W2_v7 (c : Dev nD) : W2 m ρ c (Proc.devRef .tc main_v7)
    = Host.gather gather_S100000x128_S2000000x1_S2000000x128_1_0_n_n_0_1_1128 (unit (m ((c : Thread nD τ).loc main_arg0))) (srcIdx (m ((c : Thread nD τ).loc main_arg8))) := by
  show StableHlo.after hostOps1 (W1 m ρ c) (Proc.devRef .tc main_v7) = _
  after_results
  rw [W1_h, W1_arg m ρ c main_arg8 (by decide)]
  rfl

theorem W2_v14 (c : Dev nD) : W2 m ρ c (Proc.devRef .tc main_v14)
    = Host.gather gather_S1000x128_S2000000x1_S2000000x128_1_0_n_n_0_1_1128 (m ((c : Thread nD τ).loc main_arg1)) (relIdx (m ((c : Thread nD τ).loc main_arg10))) := by
  show StableHlo.after hostOps1 (W1 m ρ c) (Proc.devRef .tc main_v14) = _
  after_results
  rw [W1_arg m ρ c main_arg1 (by decide), W1_arg m ρ c main_arg10 (by decide)]
  rfl

theorem W2_v15 (c : Dev nD) : W2 m ρ c (Proc.devRef .tc main_v15) = enCol (m ((c : Thread nD τ).loc main_arg7)) := by
  show StableHlo.after hostOps1 (W1 m ρ c) (Proc.devRef .tc main_v15) = _
  after_results
  rw [W1_arg m ρ c main_arg7 (by decide)]
  rfl

theorem W2_arg3 (c : Dev nD) : W2 m ρ c (Proc.devRef .tc main_arg3) = m ((c : Thread nD τ).loc main_arg3) := by
  show StableHlo.after hostOps1 (W1 m ρ c) (Proc.devRef .tc main_arg3) = _
  after_results
  exact W1_arg m ρ c main_arg3 (by decide)

theorem W2_arg9 (c : Dev nD) : W2 m ρ c (Proc.devRef .tc main_arg9) = m ((c : Thread nD τ).loc main_arg9) := by
  show StableHlo.after hostOps1 (W1 m ρ c) (Proc.devRef .tc main_arg9) = _
  after_results
  exact W1_arg m ρ c main_arg9 (by decide)

theorem W2_hs (c : Dev nD) : W2 m ρ c (Proc.devRef .tc main_v0_1)
    = mm (unit (m ((c : Thread nD τ).loc main_arg0))) (m ((c : Thread nD τ).loc main_arg4)) := by
  show StableHlo.after hostOps1 (W1 m ρ c) (Proc.devRef .tc main_v0_1) = _
  after_results
  exact W1_hs m ρ c

/-- After the second call: the messages, scaled before the product. -/
theorem W3_msg (c : Dev nD) : W3 m ρ c (Proc.devRef .tc main_v16)
    = msgScaledFirst (node (unit (m ((c : Thread nD τ).loc main_arg0))) (m ((c : Thread nD τ).loc main_arg1))
        (m ((c : Thread nD τ).loc main_arg8)) (m ((c : Thread nD τ).loc main_arg10)))
      (enCol (m ((c : Thread nD τ).loc main_arg7))) (m ((c : Thread nD τ).loc main_arg3)) := by
  refine (W3_arr m ρ c 4).trans ((Cert.Region1.final4 (V2 m ρ) c).trans ?_)
  show msgScaledFirst (addf (W2 m ρ c (Proc.devRef .tc main_v7)) (W2 m ρ c (Proc.devRef .tc main_v14)))
    (W2 m ρ c (Proc.devRef .tc main_v15)) (W2 m ρ c (Proc.devRef .tc main_arg3)) = _
  rw [W2_v7, W2_v14, W2_v15, W2_arg3]
  rfl

theorem W4_agg (c : Dev nD) : W4 m ρ c (Proc.devRef .tc main_v19)
    = aggregate (m ((c : Thread nD τ).loc main_arg9))
        (msgScaledFirst (node (unit (m ((c : Thread nD τ).loc main_arg0))) (m ((c : Thread nD τ).loc main_arg1))
          (m ((c : Thread nD τ).loc main_arg8)) (m ((c : Thread nD τ).loc main_arg10)))
        (enCol (m ((c : Thread nD τ).loc main_arg7))) (m ((c : Thread nD τ).loc main_arg3))) := by
  show StableHlo.after hostOps2 (W3 m ρ c) (Proc.devRef .tc main_v19) = _
  after_results
  rw [W3_msg, W3_of_ne m ρ c main_arg9 (by decide), W2_arg9]
  rfl

theorem W4_hs (c : Dev nD) : W4 m ρ c (Proc.devRef .tc main_v0_1)
    = mm (unit (m ((c : Thread nD τ).loc main_arg0))) (m ((c : Thread nD τ).loc main_arg4)) := by
  show StableHlo.after hostOps2 (W3 m ρ c) (Proc.devRef .tc main_v0_1) = _
  after_results
  rw [W3_of_ne m ρ c main_v0_1 (by decide)]
  exact W2_hs m ρ c

theorem W4_arg2 (c : Dev nD) : W4 m ρ c (Proc.devRef .tc main_arg2) = m ((c : Thread nD τ).loc main_arg2) := by
  show StableHlo.after hostOps2 (W3 m ρ c) (Proc.devRef .tc main_arg2) = _
  after_results
  rw [W3_of_ne m ρ c main_arg2 (by decide)]
  show StableHlo.after hostOps1 (W1 m ρ c) (Proc.devRef .tc main_arg2) = _
  after_results
  exact W1_arg m ρ c main_arg2 (by decide)
theorem W4_arg5 (c : Dev nD) : W4 m ρ c (Proc.devRef .tc main_arg5) = m ((c : Thread nD τ).loc main_arg5) := by
  show StableHlo.after hostOps2 (W3 m ρ c) (Proc.devRef .tc main_arg5) = _
  after_results
  rw [W3_of_ne m ρ c main_arg5 (by decide)]
  show StableHlo.after hostOps1 (W1 m ρ c) (Proc.devRef .tc main_arg5) = _
  after_results
  exact W1_arg m ρ c main_arg5 (by decide)
theorem W4_arg6 (c : Dev nD) : W4 m ρ c (Proc.devRef .tc main_arg6) = m ((c : Thread nD τ).loc main_arg6) := by
  show StableHlo.after hostOps2 (W3 m ρ c) (Proc.devRef .tc main_arg6) = _
  after_results
  rw [W3_of_ne m ρ c main_arg6 (by decide)]
  show StableHlo.after hostOps1 (W1 m ρ c) (Proc.devRef .tc main_arg6) = _
  after_results
  exact W1_arg m ρ c main_arg6 (by decide)

/-- The layer's formula of the launch memory, the edge norm applied before the product. -/
def result (c : Dev nD) : FVec Ideal S100000x128 .f32 :=
  gateBlend (aggregate (m ((c : Thread nD τ).loc main_arg9))
      (msgScaledFirst (node (unit (m ((c : Thread nD τ).loc main_arg0))) (m ((c : Thread nD τ).loc main_arg1))
        (m ((c : Thread nD τ).loc main_arg8)) (m ((c : Thread nD τ).loc main_arg10)))
      (enCol (m ((c : Thread nD τ).loc main_arg7))) (m ((c : Thread nD τ).loc main_arg3))))
    (mm (unit (m ((c : Thread nD τ).loc main_arg0))) (m ((c : Thread nD τ).loc main_arg4)))
    (m ((c : Thread nD τ).loc main_arg2)) (m ((c : Thread nD τ).loc main_arg5)) (m ((c : Thread nD τ).loc main_arg6))

/-- The kernel program's result, as a function of the launch memory: the layer's formula with the edge norm applied before
    the product. -/
theorem result_eq (c : Dev nD) : W5 m ρ c (Proc.devRef .tc main_v20) = result m c := by
  unfold result
  refine (W5_arr m ρ c 5).trans ((Cert.Region2.final5 (V4 m ρ) c).trans ?_)
  show gateBlend (W4 m ρ c (Proc.devRef .tc main_v19)) (W4 m ρ c (Proc.devRef .tc main_v0_1))
    (W4 m ρ c (Proc.devRef .tc main_arg2)) (W4 m ρ c (Proc.devRef .tc main_arg5)) (W4 m ρ c (Proc.devRef .tc main_arg6)) = _
  rw [W4_agg, W4_hs, W4_arg2, W4_arg5, W4_arg6]

/-- Every run of the kernel program ends with its result at the layer's formula and its arguments unchanged. -/
theorem run : θ_run defs (onTc (τ := τ) (main (F := Ideal))) ⟨m, fun _ => 0, ρ⟩ (fun r => ∀ c : Dev nD,
      r.2.mem ((c.tc : Thread nD τ).loc main_v20) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result_eq m ρ c), (h c).2⟩) (run_result m ρ)

end Cert.KernelValue
end
-- ==== Proof.RefSide.lean ====
/-
  The reference's result is the layer's formula.

  The reference computes, in order: unit rows of the node table; the rows gathered at the source indices plus the relation
  rows gathered at the edge types; their product with the neighbour weights, scaled afterwards by the edge norm; the
  scatter-add of those messages at the destination indices; the self-loop product; and the gated blend with the
  history. The gathers and the scatter-add are carried as they are printed; everything else is read index by index.
-/
import proofs.«149162_j45543833206863_1_alg».proof.Proof.Gen.ReferenceIdeal.Run
import proofs.«149162_j45543833206863_1_alg».proof.Proof.Gen.ReferenceIdeal.Read
import proofs.«149162_j45543833206863_1_alg».proof.Proof.Spec
import proofs.«149162_j45543833206863_1_alg».proof.Proof.LibDense
import Idealize.ShloMosaic.Lib.IdealHost

noncomputable section

namespace Cert.RefSide

open Cert.ReferenceIdeal Cert.ReferenceIdeal.Gen Idealize.ShloMosaic Idealize.ShloMosaic.ValueIdx Cert.Spec

/-- The source indices as the gather takes them: negative ones wrapped once by the table's height, as a column. -/
def srcIdx (a8 : IVec S2000000 32) : IVec S2000000x1 32 :=
  broadcastInDim S2000000x1 ![0] bcast_S2000000_S2000000x1_0
    (select (cmpi .slt a8 (broadcastInDim S2000000 ![] bcast_S_S2000000 (constantI S_ 32 0#32)))
      (addi a8 (broadcastInDim S2000000 ![] bcast_S_S2000000 (constantI S_ 32 100000#32))) a8)

/-- The edge-type indices as the gather takes them. -/
def relIdx (a10 : IVec S2000000 32) : IVec S2000000x1 32 :=
  broadcastInDim S2000000x1 ![0] bcast_S2000000_S2000000x1_0
    (select (cmpi .slt a10 (broadcastInDim S2000000 ![] bcast_S_S2000000 (constantI S_ 32 0#32)))
      (addi a10 (broadcastInDim S2000000 ![] bcast_S_S2000000 (constantI S_ 32 1000#32))) a10)

/-- An edge's node row: the unit row of its source plus the relation row of its type. -/
def node (h : FVec Ideal S100000x128 .f32) (rel : FVec Ideal S1000x128 .f32) (a8 a10 : IVec S2000000 32) :
    FVec Ideal S2000000x128 .f32 :=
  addf (Host.gather gather_S100000x128_S2000000x1_S2000000x128_1_0_n_n_0_1_1128 h (srcIdx a8))
    (Host.gather gather_S1000x128_S2000000x1_S2000000x128_1_0_n_n_0_1_1128 rel (relIdx a10))

/-- The edge norms as a column. -/
def enCol (a7 : FVec Ideal S2000000 .f32) : FVec Ideal S2000000x1 .f32 :=
  broadcastInDim S2000000x1 ![0] bcast_S2000000_S2000000x1_0 a7

/-- The messages summed at their destination rows. -/
def aggregate (a9 : IVec S2000000 32) (msg : FVec Ideal S2000000x128 .f32) : FVec Ideal S100000x128 .f32 :=
  Host.scatterAdd scatter_S100000x128_S2000000x1_S2000000x128_1_0_0_1
    (broadcastInDim S100000x128 ![] bcast_S_S100000x128 (constant S_ .f32 0x00000000#32))
    (broadcastInDim S2000000x1 ![0] bcast_S2000000_S2000000x1_0 a9) msg

/-- The reference's normalised table is the table of unit rows. -/
private theorem unit_eq (x0 : FVec Ideal S100000x128 .f32) : Read.val_main_v7 (F := Ideal) x0 = unit x0 := by
  funext i
  obtain ⟨p, q, rfl⟩ : ∃ p q, i = ix2 p q := ⟨i 0, i 1, eq_ix2 i⟩
  rw [Read.val_main_v7_apply, Read.val_main_v6_apply, Read.val_main_v5_apply, Read.val_main_v3_apply,
    Read.val_main_v2_apply, Read.val_main_v1_apply, Read.val_main_v4_apply, Read.val_main_cst_0_apply,
    Read.val_main_cst_apply]
  have hidx : ∀ k : Fin 128, Read.idx_main_v1 (Read.idx_main_v2 (Read.idx_main_v6 (ix2 p q))) k = ix2 p k :=
    fun k => funext fun a => Fin.ext (by match a with | ⟨0, _⟩ => rfl | ⟨1, _⟩ => rfl)
  simp only [hidx, Read.val_main_v0_apply, Ideal.hostDivf_def, Ideal.maximumf_def, Ideal.hostUnary_sqrt_def,
    Ideal.mulf_def, Ideal.ofBits_def, Ideal.ofBits_zero_f32, zero_add]
  rfl

/-- The self-loop term is the product of the unit rows with the self-loop weights. -/
private theorem self_eq (x0 : FVec Ideal S100000x128 .f32) (x4 : FVec Ideal S128x128 .f32) :
    Read.val_main_v30 (F := Ideal) x0 x4 = mm (unit x0) x4 := by
  funext i
  obtain ⟨p, q, rfl⟩ : ∃ p q, i = ix2 p q := ⟨i 0, i 1, eq_ix2 i⟩
  rw [Read.val_main_v30_apply, unit_eq]
  have hl : ∀ k : Fin 128, Read.lidx_main_v30 (ix2 p q) k = ix2 p k :=
    fun k => funext fun a => Fin.ext (by match a with | ⟨0, _⟩ => rfl | ⟨1, _⟩ => rfl)
  have hr : ∀ k : Fin 128, Read.ridx_main_v30 (ix2 p q) k = ix2 k q :=
    fun k => funext fun a => Fin.ext (by match a with | ⟨0, _⟩ => rfl | ⟨1, _⟩ => rfl)
  simp only [hl, hr]
  rfl

/-- The gathered rows and their sum are the edges' node rows. -/
private theorem node_eq (x0 : FVec Ideal S100000x128 .f32) (x1 : FVec Ideal S1000x128 .f32) (x8 x10 : IVec S2000000 32) :
    Read.val_main_v22 (F := Ideal) x0 x1 x8 x10 = node (unit x0) x1 x8 x10 := by
  rw [← unit_eq]
  rfl

/-- The edge norms' column is the reference's first broadcast of them. -/
private theorem enCol_eq (x7 : FVec Ideal S2000000 .f32) : Read.val_main_v24 (F := Ideal) x7 = enCol x7 := rfl

/-- The messages: the node rows times the neighbour weights, scaled afterwards by the edge norm. -/
private theorem msg_eq (x0 : FVec Ideal S100000x128 .f32) (x1 : FVec Ideal S1000x128 .f32) (x3 : FVec Ideal S128x128 .f32)
    (x7 : FVec Ideal S2000000 .f32) (x8 x10 : IVec S2000000 32) :
    Read.val_main_v26 (F := Ideal) x0 x1 x3 x7 x8 x10
      = msgScaledLast (node (unit x0) x1 x8 x10) (enCol x7) x3 := by
  funext i
  obtain ⟨p, q, rfl⟩ : ∃ p q, i = ix2 p q := ⟨i 0, i 1, eq_ix2 i⟩
  rw [Read.val_main_v26_apply, Read.val_main_v23_apply, Read.val_main_v25_apply, node_eq, enCol_eq]
  have hl : ∀ k : Fin 128, Read.lidx_main_v23 (ix2 p q) k = ix2 p k :=
    fun k => funext fun a => Fin.ext (by match a with | ⟨0, _⟩ => rfl | ⟨1, _⟩ => rfl)
  have hr : ∀ k : Fin 128, Read.ridx_main_v23 (ix2 p q) k = ix2 k q :=
    fun k => funext fun a => Fin.ext (by match a with | ⟨0, _⟩ => rfl | ⟨1, _⟩ => rfl)
  have he : Read.idx_main_v25 (ix2 p q) = ix2 p (0 : Fin 1) :=
    funext fun a => Fin.ext (by match a with | ⟨0, _⟩ => rfl | ⟨1, _⟩ => rfl)
  simp only [hl, hr, he]
  rfl

/-- The scatter-add of the messages is the aggregate. -/
private theorem agg_eq (x0 : FVec Ideal S100000x128 .f32) (x1 : FVec Ideal S1000x128 .f32) (x3 : FVec Ideal S128x128 .f32)
    (x7 : FVec Ideal S2000000 .f32) (x8 x9 x10 : IVec S2000000 32) :
    Read.val_main_v29 (F := Ideal) x0 x1 x3 x7 x8 x9 x10
      = aggregate x9 (Read.val_main_v26 (F := Ideal) x0 x1 x3 x7 x8 x10) := rfl

/-- The select on the sign of the sum is the leaky activation of aggregate plus self-loop term. -/
private theorem cur_eq (x0 : FVec Ideal S100000x128 .f32) (x1 : FVec Ideal S1000x128 .f32) (x3 x4 : FVec Ideal S128x128 .f32)
    (x7 : FVec Ideal S2000000 .f32) (x8 x9 x10 : IVec S2000000 32) :
    Read.val_main_v36 (F := Ideal) x0 x1 x3 x4 x7 x8 x9 x10
      = cur (Read.val_main_v29 (F := Ideal) x0 x1 x3 x7 x8 x9 x10) (Read.val_main_v30 (F := Ideal) x0 x4) := by
  funext i
  rw [Read.val_main_v36_apply, Read.val_main_v33_apply, Read.val_main_v35_apply, Read.val_main_v31_apply,
    Read.val_main_v32_apply, Read.val_main_v34_apply, Read.val_main_cst_5_apply, Read.val_main_cst_6_apply]
  rfl

/-- The product with the gate weights plus the bias is the gate before the logistic function. -/
private theorem gatePre_eq (x0 : FVec Ideal S100000x128 .f32) (x1 : FVec Ideal S1000x128 .f32) (x3 x4 x5 : FVec Ideal S128x128 .f32)
    (x6 : FVec Ideal S128 .f32) (x7 : FVec Ideal S2000000 .f32) (x8 x9 x10 : IVec S2000000 32) :
    Read.val_main_v40 (F := Ideal) x0 x1 x3 x4 x5 x6 x7 x8 x9 x10
      = gatePre (Read.val_main_v36 (F := Ideal) x0 x1 x3 x4 x7 x8 x9 x10) x5 x6 := by
  funext i
  obtain ⟨p, q, rfl⟩ : ∃ p q, i = ix2 p q := ⟨i 0, i 1, eq_ix2 i⟩
  rw [Read.val_main_v40_apply, Read.val_main_v37_apply, Read.val_main_v39_apply, Read.val_main_v38_apply]
  have hl : ∀ k : Fin 128, Read.lidx_main_v37 (ix2 p q) k = ix2 p k :=
    fun k => funext fun a => Fin.ext (by match a with | ⟨0, _⟩ => rfl | ⟨1, _⟩ => rfl)
  have hr : ∀ k : Fin 128, Read.ridx_main_v37 (ix2 p q) k = ix2 k q :=
    fun k => funext fun a => Fin.ext (by match a with | ⟨0, _⟩ => rfl | ⟨1, _⟩ => rfl)
  have hb : Read.idx_main_v38 (Read.idx_main_v39 (ix2 p q)) = ix1 q :=
    funext fun a => Fin.ext (by match a with | ⟨0, _⟩ => rfl)
  simp only [hl, hr, hb]
  rfl

/-- One over one plus the exponential of the negation is the logistic function. -/
private theorem logistic_eq (z : EReal) :
    Ideal.div (Ideal.ofBits .f32 0x3F800000#32) (Ideal.ofBits .f32 0x3F800000#32 + Ideal.exp (-z)) = Ideal.logistic z := by
  rw [Ideal.ofBits_one_f32]
  rfl

/-- The gate, from the reference's division. -/
private theorem gate_eq (x0 : FVec Ideal S100000x128 .f32) (x1 : FVec Ideal S1000x128 .f32) (x3 x4 x5 : FVec Ideal S128x128 .f32)
    (x6 : FVec Ideal S128 .f32) (x7 : FVec Ideal S2000000 .f32) (x8 x9 x10 : IVec S2000000 32) (i : S100000x128.Idx) :
    Read.val_main_v46 (F := Ideal) x0 x1 x3 x4 x5 x6 x7 x8 x9 x10 i
      = Ideal.logistic (Read.val_main_v40 (F := Ideal) x0 x1 x3 x4 x5 x6 x7 x8 x9 x10 i) := by
  rw [Read.val_main_v46_apply, Read.val_main_v44_apply, Read.val_main_v42_apply, Read.val_main_v41_apply,
    Read.val_main_v45_apply, Read.val_main_v43_apply, Read.val_main_cst_7_apply, Read.val_main_cst_8_apply]
  simp only [Ideal.hostDivf_def, Ideal.addf_def, Ideal.hostUnary_exp_def, Ideal.hostNegf_def, Ideal.negf_def,
    Ideal.ofBits_def]
  exact logistic_eq _

/-- The reference's result, stage by stage, is the layer's formula with the edge norm applied after the product. -/
theorem result_eq (x0 : FVec Ideal S100000x128 .f32) (x1 : FVec Ideal S1000x128 .f32) (x2 : FVec Ideal S100000x128 .f32)
    (x3 x4 x5 : FVec Ideal S128x128 .f32) (x6 : FVec Ideal S128 .f32) (x7 : FVec Ideal S2000000 .f32)
    (x8 x9 x10 : IVec S2000000 32) :
    Cert.ReferenceIdeal.Read.val_main_v51 (F := Ideal) x0 x1 x2 x3 x4 x5 x6 x7 x8 x9 x10
      = gateBlend (aggregate x9 (msgScaledLast (node (unit x0) x1 x8 x10) (enCol x7) x3)) (mm (unit x0) x4) x2 x5 x6 := by
  funext i
  rw [Read.val_main_v51_apply, Read.val_main_v47_apply, Read.val_main_v50_apply, Read.val_main_v49_apply,
    Read.val_main_v48_apply, Read.val_main_cst_9_apply, gate_eq, gatePre_eq, cur_eq, agg_eq, msg_eq, self_eq]
  rfl

end Cert.RefSide

end
-- ==== Proof.LibLinear.lean ====
/-
  Finite sums of real numbers inside the extended reals, and the exchange of a weighted row sum with a matrix product.

  For rows x e (e in a finite set S) with real entries, real weights c e and a real column W:
    Σ k, (Σ e ∈ S, x e k · c e) · W k  =  Σ e ∈ S, (Σ k, x e k · W k) · c e.
  Both sides are the real number Σ e ∈ S, Σ k, x e k · c e · W k; on the extended reals the law needs every factor
  finite, because a product does not distribute over a sum that mixes infinities.
-/
import Idealize.ShloMosaic.PureOps.Ideal

noncomputable section

namespace Cert.LibLinear

/-- The extended real of a finite sum of reals is the sum of the extended reals. -/
theorem coe_sum {ι : Type} (S : Finset ι) (f : ι → ℝ) : ((∑ i ∈ S, f i : ℝ) : EReal) = ∑ i ∈ S, (f i : EReal) := by
  classical
  refine Finset.induction_on S ?_ ?_
  · simp
  · intro a s ha ih
    rw [Finset.sum_insert ha, Finset.sum_insert ha, EReal.coe_add, ih]

/-- A finite sum of extended reals that are all real is real. -/
theorem sum_real {ι : Type} (S : Finset ι) (f : ι → EReal) (hf : ∀ i ∈ S, ∃ r : ℝ, f i = (r : EReal)) :
    ∃ r : ℝ, ∑ i ∈ S, f i = (r : EReal) := by
  refine ⟨∑ i ∈ S, (f i).toReal, ?_⟩
  rw [coe_sum]
  refine Finset.sum_congr rfl (fun i hi => ?_)
  obtain ⟨r, hr⟩ := hf i hi
  rw [hr, EReal.toReal_coe]

/-- The exchange law. -/
theorem exchange {E K : Type} [Fintype K] (S : Finset E) (x : E → K → EReal) (cw : E → EReal) (W : K → EReal)
    (hx : ∀ e k, ∃ r : ℝ, x e k = (r : EReal)) (hc : ∀ e, ∃ r : ℝ, cw e = (r : EReal)) (hW : ∀ k, ∃ r : ℝ, W k = (r : EReal)) :
    ∑ k : K, (∑ e ∈ S, x e k * cw e) * W k = ∑ e ∈ S, (∑ k : K, x e k * W k) * cw e := by
  -- real witnesses for every entry
  choose xr hxr using hx
  choose cr hcr using hc
  choose Wr hWr using hW
  -- the left side is the extended real of a real double sum
  have hL : ∑ k : K, (∑ e ∈ S, x e k * cw e) * W k
      = ((∑ k : K, (∑ e ∈ S, xr e k * cr e) * Wr k : ℝ) : EReal) := by
    rw [coe_sum]
    refine Finset.sum_congr rfl (fun k _ => ?_)
    rw [EReal.coe_mul, coe_sum, hWr]
    congr 1
    refine Finset.sum_congr rfl (fun e _ => ?_)
    rw [EReal.coe_mul, hxr, hcr]
  -- so is the right side
  have hR : ∑ e ∈ S, (∑ k : K, x e k * W k) * cw e
      = ((∑ e ∈ S, (∑ k : K, xr e k * Wr k) * cr e : ℝ) : EReal) := by
    rw [coe_sum]
    refine Finset.sum_congr rfl (fun e _ => ?_)
    rw [EReal.coe_mul, coe_sum, hcr]
    congr 1
    refine Finset.sum_congr rfl (fun k _ => ?_)
    rw [EReal.coe_mul, hxr, hWr]
  rw [hL, hR]
  congr 1
  -- over the reals: distribute, swap the two sums, and compare term by term
  simp only [Finset.sum_mul]
  rw [Finset.sum_comm]
  refine Finset.sum_congr rfl (fun e _ => Finset.sum_congr rfl (fun k _ => ?_))
  ring

end Cert.LibLinear

end
-- ==== Proof.Algebra.lean ====
/-
  Where the two orders of scaling an edge's message agree: on real entries.

  On the extended reals a product does not distribute over a sum that mixes infinities, so the law
  Σ k, (node (e, k) · n e) · w (k, j) = (Σ k, node (e, k) · w (k, j)) · n e is stated for matrices whose entries are all real.
  Unit rows of a real matrix are real (the floor under the length is a positive real), sums of real matrices are
  real, and a gather only re-reads entries of its operand.
-/
import proofs.«149162_j45543833206863_1_alg».proof.Proof.Spec
import proofs.«149162_j45543833206863_1_alg».proof.Proof.LibLinear

noncomputable section

namespace Cert.Algebra

open Idealize.ShloMosaic Idealize.ShloMosaic.ValueIdx Cert.Spec

/-- Every entry is a real number. -/
def IsReal {s : Shape} (x : FVec Ideal s .f32) : Prop := ∀ i, ∃ r : ℝ, x i = (r : EReal)

/-- The floor under a row's length is a positive real number. -/
private theorem eps_pos : ∃ e : ℝ, 0 < e ∧ eps = (e : EReal) := by
  unfold eps
  simp [Ideal.ofBits, Ideal.ieee, -EReal.coe_mul]

/-- The floored length of a row of a real matrix is a nonzero real number. -/
private theorem rowNorm_real {R : ℕ} (x : Mat R 128) (hx : IsReal x) (r : Fin R) :
    ∃ n : ℝ, n ≠ 0 ∧ rowNorm x r = (n : EReal) := by
  obtain ⟨e, he, hee⟩ := eps_pos
  -- the sum of squares of the row is a real number
  obtain ⟨s, hs⟩ := Cert.LibLinear.sum_real (Finset.univ : Finset (Fin 128))
    (fun k => x (ix2 r k) * x (ix2 r k)) (fun k _ => by
      obtain ⟨a, ha⟩ := hx (ix2 r k)
      exact ⟨a * a, by simp only [ha, EReal.coe_mul]⟩)
  unfold rowNorm
  rw [hs, hee, Ideal.sqrt_coe]
  by_cases hneg : s < 0
  · -- a negative argument: the root is the bottom element and the floor wins
    rw [if_pos hneg, max_eq_right bot_le]
    exact ⟨e, he.ne', rfl⟩
  · -- otherwise the maximum of two reals, at least the positive floor
    rw [if_neg hneg]
    refine ⟨max (Real.sqrt s) e, (lt_of_lt_of_le he (le_max_right _ _)).ne', ?_⟩
    exact (EReal.coe_strictMono.monotone.map_max).symm

/-- Unit rows of a real matrix are real. -/
theorem unit_real {R : ℕ} (x : Mat R 128) (hx : IsReal x) : IsReal (unit x) := by
  intro i
  obtain ⟨n, hn, hnn⟩ := rowNorm_real x hx (i 0)
  obtain ⟨a, ha⟩ := hx i
  refine ⟨a * (1 / n), ?_⟩
  show Ideal.div (x i) (rowNorm x (i 0)) = _
  rw [hnn, Ideal.div_coe hn, ha, EReal.coe_mul]

/-- The entrywise sum of two real arrays is real. -/
theorem add_real {s : Shape} (a b : FVec Ideal s .f32) (ha : IsReal a) (hb : IsReal b) : IsReal (addf a b) := by
  intro i
  obtain ⟨ra, hra⟩ := ha i
  obtain ⟨rb, hrb⟩ := hb i
  refine ⟨ra + rb, ?_⟩
  show a i + b i = _
  rw [hra, hrb, EReal.coe_add]

/-- A gather of a real array is real: each of its entries is an entry of the operand. -/
theorem gather_real {s si t : Shape} {w : ℕ} (d : GatherDims s si t) (x : FVec Ideal s .f32) (idx : IVec si w) (hx : IsReal x) :
    IsReal (Host.gather d x idx : FVec Ideal t .f32) := by
  intro j
  exact hx (d.operandIdx j idx)

/-- On real entries the edge norm may be applied before or after the product. -/
theorem msg_scaling {R : ℕ} (node : Mat R 128) (en : Mat R 1) (w : Mat 128 128)
    (hn : IsReal node) (he : IsReal en) (hw : IsReal w) : msgScaledFirst node en w = msgScaledLast node en w := by
  funext i
  -- the exchange law over the one-point set of edges
  have h := Cert.LibLinear.exchange (E := Unit) (K := Fin 128) (Finset.univ : Finset Unit)
    (fun _ k => node (ix2 (i 0) k)) (fun _ => en (ix2 (i 0) 0)) (fun k => w (ix2 k (i 1)))
    (fun _ k => hn _) (fun _ => he _) (fun k => hw _)
  simpa [msgScaledFirst, msgScaledLast] using h

end Cert.Algebra

end
-- ==== Proof.Finite.lean ====
/-
  What the precondition says: every float input has only real entries.

  The precondition is the conjunction, over the eight float inputs, of "every |entry| is below +infinity". An extended real
  whose absolute value is below +infinity is a real number.
-/
import proofs.«149162_j45543833206863_1_alg».proof.Pre_finite_inputs
import proofs.«149162_j45543833206863_1_alg».proof.Proof.Algebra
import Idealize.ShloMosaic.Lib.ReduceAll

noncomputable section

namespace Cert.Finite

open Idealize.ShloMosaic Idealize.ShloMosaic.ValueIdx Cert.Algebra Cert.Pre_finite_inputs

/-- The shape of rank zero has one index. -/
private instance subsingleton_idx : Subsingleton S_.Idx := ⟨fun a b => funext fun d => d.elim0⟩

/-- An extended real whose absolute value compares below +infinity is a real number. -/
private theorem real_of_abs_lt_top (x : EReal)
    (h : FloatOps.cmpf (F := Ideal) (φ := .f32) .olt (FloatOps.hostAbsf (F := Ideal) (φ := .f32) x)
      (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot =>
    -- |−∞| = +∞ is not below +∞
    exfalso
    have h' : BitVec.ofBool (decide (max (⊥ : EReal) (-⊥) < ⊤)) = 1#1 := h
    simp at h'
  | coe r => exact ⟨r, rfl⟩
  | top =>
    -- |+∞| = +∞ is not below +∞
    exfalso
    have h' : BitVec.ofBool (decide (max (⊤ : EReal) (-⊤) < ⊤)) = 1#1 := h
    simp at h'

/-- One conjunct of the precondition: if "every |entry| is below +infinity", reduced over all axes, is true, the array is real. -/
private theorem isReal_of_all {s : Shape} {axes : List (Fin s.rank)} (a : FVec Ideal s .f32)
    (hb : S_.BroadcastsInDim s (![] : Fin 0 → Fin s.rank)) (hr : s.ReducesTo axes S_) (hu : 0 < S_.numel) (init : IVec S_ 1)
    (e : Host.reduce IntOp.andi
      (cmpf .olt (Host.absf a) (broadcastInDim s ![] hb (constant (F := Ideal) S_ .f32 0x7F800000#32))) init hr hu ix0 = 1#1) :
    IsReal a := by
  intro i
  have hi := Host.reduce_andi_all _ init hr hu ix0 e i
  exact real_of_abs_lt_top (a i) hi

/-- Under the precondition the node table, the relation table, the neighbour weights and the edge norms are real. -/
theorem reals_of_pre [Cert.Pre_finite_inputs.Facts]
    (a0 : FVec Ideal S100000x128 .f32) (a1 : FVec Ideal S1000x128 .f32) (a2 : FVec Ideal S100000x128 .f32)
    (a3 a4 a5 : FVec Ideal S128x128 .f32) (a6 : FVec Ideal S128 .f32) (a7 : FVec Ideal S2000000 .f32)
    (a8 a9 a10 : IVec S2000000 32)
    (h : Cert.Pre_finite_inputs.fn (F := Ideal) a0 a1 a2 a3 a4 a5 a6 a7 a8 a9 a10 = fun _ => 1#1) :
    IsReal a0 ∧ IsReal a1 ∧ IsReal a3 ∧ IsReal a7 := by
  have h0 := congrFun h ix0
  dsimp only [fn, fn_part1, fn_part2] at h0
  -- the conjunction, split from its last conjunct to its first
  obtain ⟨h33, e37⟩ := IntOp.andi_eq_one.1 h0
  obtain ⟨h28, _⟩ := IntOp.andi_eq_one.1 h33
  obtain ⟨h23, _⟩ := IntOp.andi_eq_one.1 h28
  obtain ⟨h18, _⟩ := IntOp.andi_eq_one.1 h23
  obtain ⟨h13, e17⟩ := IntOp.andi_eq_one.1 h18
  obtain ⟨h8, _⟩ := IntOp.andi_eq_one.1 h13
  obtain ⟨e3, e7⟩ := IntOp.andi_eq_one.1 h8
  exact ⟨isReal_of_all a0 _ _ _ _ e3, isReal_of_all a1 _ _ _ _ e7, isReal_of_all a3 _ _ _ _ e17,
    isReal_of_all a7 _ _ _ _ e37⟩

end Cert.Finite

end
-- ==== Proof.lean ====
/-
  One layer of relational message passing, computed by three kernel calls with gathers and a scatter-add between them,
  against its reference over the extended reals.

  Both programs compute, for node rows x, relation rows rel, history rows his and edges (src, dst, type, norm):
  unit rows h = x / max (|x|, ε); per edge the row h[src] + rel[type]; its product with the neighbour weights, scaled by the
  edge's norm; the sum of those messages at each destination row; that sum plus h · W_self, passed through the leaky
  activation; and the blend g · cur + (1 − g) · his with the gate g = logistic (cur · W_gate + b).
  The kernel applies the edge norm to the row before the product, the reference to the product afterwards. On the
  extended reals the two agree where every entry involved is real, and the precondition makes them real: the inputs are
  finite, a unit row of a real row is real (the floor ε is a positive real), and a gather only re-reads entries.
  Everything else is the same function on both sides: the matrix product as a sum over k at the idealized floats, the
  square root, the maximum and the quotient entry by entry, and the logistic function, which is 1 / (1 + exp (−z)) in
  both spellings. The gathers and the scatter-add are the same operations of equal operands and are never opened.
-/
import proofs.«149162_j45543833206863_1_alg».proof.Defs
import proofs.«149162_j45543833206863_1_alg».proof.Proof.Gen.Kernel
import proofs.«149162_j45543833206863_1_alg».proof.Proof.Gen.Kernel.Skeleton
import proofs.«149162_j45543833206863_1_alg».proof.Proof.Gen.Kernel.Launch
import proofs.«149162_j45543833206863_1_alg».proof.Proof.Gen.Kernel.Points
import proofs.«149162_j45543833206863_1_alg».proof.Proof.Gen.Kernel.Frame
import proofs.«149162_j45543833206863_1_alg».proof.Proof.Gen.KernelIdeal
import proofs.«149162_j45543833206863_1_alg».proof.Proof.Gen.KernelIdeal.Skeleton
import proofs.«149162_j45543833206863_1_alg».proof.Proof.Gen.KernelIdeal.Launch
import proofs.«149162_j45543833206863_1_alg».proof.Proof.Gen.KernelIdeal.Points
import proofs.«149162_j45543833206863_1_alg».proof.Proof.Gen.KernelIdeal.Frame
import proofs.«149162_j45543833206863_1_alg».proof.Proof.Gen.ReferenceIdeal
import proofs.«149162_j45543833206863_1_alg».proof.Proof.Gen.ReferenceIdeal.Run
import proofs.«149162_j45543833206863_1_alg».proof.Proof.Gen.ReferenceIdeal.Read
import proofs.«149162_j45543833206863_1_alg».proof.Proof.Gen.Pre_finite_inputs
import proofs.«149162_j45543833206863_1_alg».proof.Proof.KernelValue
import proofs.«149162_j45543833206863_1_alg».proof.Proof.RefSide
import proofs.«149162_j45543833206863_1_alg».proof.Proof.Algebra
import proofs.«149162_j45543833206863_1_alg».proof.Proof.Finite
import Idealize.ShloMosaic.Adequacy
import Idealize.ShloMosaic.Init

noncomputable section

namespace Cert.Proof

open Idealize.ShloMosaic Idealize.ShloMosaic.TcCoe Idealize.SL.Sem Cert.Spec Cert.Algebra

/-- The two programs spell the gathers, the norm column and the scatter-add alike. -/
theorem node_same : @Cert.RefSide.node = @Cert.KernelValue.node := rfl
theorem enCol_same : @Cert.RefSide.enCol = @Cert.KernelValue.enCol := rfl
theorem aggregate_same : @Cert.RefSide.aggregate = @Cert.KernelValue.aggregate := rfl

/-- A vector laid out as a column has the vector's entries. -/
theorem enCol_real (a7 : FVec Ideal Cert.KernelIdeal.S2000000 .f32) (h : IsReal a7) : IsReal (Cert.KernelValue.enCol a7) :=
  fun _ => h _

/-- An edge's node row is a sum of two gathered rows: real when the tables are. -/
theorem node_real (h : FVec Ideal Cert.KernelIdeal.S100000x128 .f32) (rel : FVec Ideal Cert.KernelIdeal.S1000x128 .f32)
    (a8 a10 : IVec Cert.KernelIdeal.S2000000 32) (hh : IsReal h) (hr : IsReal rel) :
    IsReal (Cert.KernelValue.node h rel a8 a10) :=
  add_real _ _ (gather_real _ _ _ hh) (gather_real _ _ _ hr)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments and satisfy the precondition, both programs end at the layer's formula. -/
theorem algebraic : Cert.algebraic_KernelIdeal_ReferenceIdeal := by
  intro m ρ m' ρ' hpre hagree
  refine ⟨_, Cert.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  obtain ⟨r0, r1, r3, r7⟩ := Cert.Finite.reals_of_pre _ _ _ _ _ _ _ _ _ _ _ (hpre c)
  rw [Cert.ReferenceIdeal.Read.val_main_v51_eq, Cert.RefSide.result_eq, e0, e1, e2, e3, e4, e5, e6, e7, e8, e9, e10,
    node_same, enCol_same, aggregate_same]
  unfold Cert.KernelValue.result
  rw [msg_scaling _ _ _ (node_real _ _ _ _ (unit_real _ r0) r1) (enCol_real _ r7) r3]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
